-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x65536x386 : Shape := ⟨3, ![4, 65536, 386]⟩
abbrev S4x65536 : Shape := ⟨2, ![4, 65536]⟩
abbrev S128 : Shape := ⟨1, ![128]⟩
abbrev S384x384 : Shape := ⟨2, ![384, 384]⟩
abbrev S384 : Shape := ⟨1, ![384]⟩
abbrev S384x128 : Shape := ⟨2, ![384, 128]⟩
abbrev S_ : Shape := ⟨0, ![]⟩

class Facts : Prop where
  bcast_S_S4x65536x386 : S_.BroadcastsInDim S4x65536x386 (![] : Fin 0 → Fin S4x65536x386.rank)
  reducesTo_S4x65536x386_S_d0_1_2 : S4x65536x386.ReducesTo [0, 1, 2] S_
  h_S_ : 0 < S_.numel
  bcast_S_S4x65536 : S_.BroadcastsInDim S4x65536 (![] : Fin 0 → Fin S4x65536.rank)
  reducesTo_S4x65536_S_d0_1 : S4x65536.ReducesTo [0, 1] S_
  bcast_S_S128 : S_.BroadcastsInDim S128 (![] : Fin 0 → Fin S128.rank)
  reducesTo_S128_S_d0 : S128.ReducesTo [0] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_
  bcast_S_S384x128 : S_.BroadcastsInDim S384x128 (![] : Fin 0 → Fin S384x128.rank)
  reducesTo_S384x128_S_d0_1 : S384x128.ReducesTo [0, 1] S_

variable [Facts]

def fn_part2 {F : FTy → Type} [FloatOps F] (main_arg7 : FVec F S384 .f32) (main_v33 : IVec S_ 1) : IVec S_ 1 :=
  let main_v34 : FVec F S384 .f32 := Host.absf main_arg7
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  main_v38

def fn_part1 {F : FTy → Type} [FloatOps F] (main_arg4 : FVec F S384x384 .f32) (main_arg5 : FVec F S384 .f32) (main_arg6 : FVec F S384x128 .f32) (main_arg7 : FVec F S384 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S384x384 .f32 := Host.absf main_arg4
  let main_cst_6 : FVec F S_ .f32 := constant S_ .f32 0x7F800000#32
  let main_v20 : FVec F S384x384 .f32 := broadcastInDim S384x384 ![] bcast_S_S384x384 main_cst_6
  let main_v21 : IVec S384x384 1 := cmpf .olt main_v19 main_v20
  let main_c_7 : IVec S_ 1 := constantI S_ 1 1#1
  let main_v22 : IVec S_ 1 := (fun x v => Host.reduce IntOp.andi x v reducesTo_S384x384_S_d0_1 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384x128 .f32 := Host.absf main_arg6
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg7 main_v33

def fn {F : FTy → Type} [FloatOps F] (main_arg0 : FVec F S4x65536x386 .f32) (main_arg1 : FVec F S4x65536 .f32) (main_arg2 : FVec F S128 .f32) (main_arg3 : FVec F S128 .f32) (main_arg4 : FVec F S384x384 .f32) (main_arg5 : FVec F S384 .f32) (main_arg6 : FVec F S384x128 .f32) (main_arg7 : FVec F S384 .f32) : IVec S_ 1 :=
  let main_v0 : FVec F S4x65536x386 .f32 := Host.absf main_arg0
  let main_cst : FVec F S_ .f32 := constant S_ .f32 0x7F800000#32
  let main_v1 : FVec F S4x65536x386 .f32 := broadcastInDim S4x65536x386 ![] bcast_S_S4x65536x386 main_cst
  let main_v2 : IVec S4x65536x386 1 := cmpf .olt main_v0 main_v1
  let main_c : IVec S_ 1 := constantI S_ 1 1#1
  let main_v3 : IVec S_ 1 := (fun x v => Host.reduce IntOp.andi x v reducesTo_S4x65536x386_S_d0_1_2 h_S_) main_v2 main_c
  let main_v4 : FVec F S4x65536 .f32 := Host.absf main_arg1
  let main_cst_0 : FVec F S_ .f32 := constant S_ .f32 0x7F800000#32
  let main_v5 : FVec F S4x65536 .f32 := broadcastInDim S4x65536 ![] bcast_S_S4x65536 main_cst_0
  let main_v6 : IVec S4x65536 1 := cmpf .olt main_v4 main_v5
  let main_c_1 : IVec S_ 1 := constantI S_ 1 1#1
  let main_v7 : IVec S_ 1 := (fun x v => Host.reduce IntOp.andi x v reducesTo_S4x65536_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S4x65536x386 : Shape := ⟨3, ![4, 65536, 386]⟩
abbrev S4x65536 : Shape := ⟨2, ![4, 65536]⟩
abbrev S128 : Shape := ⟨1, ![128]⟩
abbrev S384x384 : Shape := ⟨2, ![384, 384]⟩
abbrev S384 : Shape := ⟨1, ![384]⟩
abbrev S384x128 : Shape := ⟨2, ![384, 128]⟩
abbrev S262144x386 : Shape := ⟨2, ![262144, 386]⟩
abbrev S262144x1 : Shape := ⟨2, ![262144, 1]⟩
abbrev S1x128 : Shape := ⟨2, ![1, 128]⟩
abbrev S1x384 : Shape := ⟨2, ![1, 384]⟩
abbrev S128x384 : Shape := ⟨2, ![128, 384]⟩
abbrev S262144x128 : Shape := ⟨2, ![262144, 128]⟩
abbrev S1024x386 : Shape := ⟨2, ![1024, 386]⟩
abbrev S1024x1 : Shape := ⟨2, ![1024, 1]⟩
abbrev S1024x128 : Shape := ⟨2, ![1024, 128]⟩
abbrev S1024x256 : Shape := ⟨2, ![1024, 256]⟩
abbrev S1024x384 : Shape := ⟨2, ![1024, 384]⟩

abbrev nBuf : Space → Nat
  | .hbm => 19
  | .vmem => 12
  | .smem => 0
  | _ => 0

abbrev bufTy : (tb : Table) → Fin (tcTables nBuf tb) → BufTy
  | .hbm, ⟨0, _⟩ => ⟨S4x65536x386, .f32⟩
  | .hbm, ⟨1, _⟩ => ⟨S4x65536, .f32⟩
  | .hbm, ⟨2, _⟩ => ⟨S128, .f32⟩
  | .hbm, ⟨3, _⟩ => ⟨S128, .f32⟩
  | .hbm, ⟨4, _⟩ => ⟨S384x384, .f32⟩
  | .hbm, ⟨5, _⟩ => ⟨S384, .f32⟩
  | .hbm, ⟨6, _⟩ => ⟨S384x128, .f32⟩
  | .hbm, ⟨7, _⟩ => ⟨S384, .f32⟩
  | .hbm, ⟨8, _⟩ => ⟨S262144x386, .f32⟩
  | .hbm, ⟨9, _⟩ => ⟨S262144x1, .f32⟩
  | .hbm, ⟨10, _⟩ => ⟨S1x128, .f32⟩
  | .hbm, ⟨11, _⟩ => ⟨S1x128, .f32⟩
  | .hbm, ⟨12, _⟩ => ⟨S1x384, .f32⟩
  | .hbm, ⟨13, _⟩ => ⟨S1x384, .f32⟩
  | .hbm, ⟨14, _⟩ => ⟨S384x384, .f32⟩
  | .hbm, ⟨15, _⟩ => ⟨S384x384, .bf16⟩
  | .hbm, ⟨16, _⟩ => ⟨S128x384, .f32⟩
  | .hbm, ⟨17, _⟩ => ⟨S128x384, .bf16⟩
  | .hbm, ⟨18, _⟩ => ⟨S262144x128, .f32⟩
  | .local _ .vmem, ⟨0, _⟩ => ⟨S1024x386, .f32⟩
  | .local _ .vmem, ⟨1, _⟩ => ⟨S1024x386, .f32⟩
  | .local _ .vmem, ⟨2, _⟩ => ⟨S1024x1, .f32⟩
  | .local _ .vmem, ⟨3, _⟩ => ⟨S1024x1, .f32⟩
  | .local _ .vmem, ⟨4, _⟩ => ⟨S1x128, .f32⟩
  | .local _ .vmem, ⟨5, _⟩ => ⟨S1x128, .f32⟩
  | .local _ .vmem, ⟨6, _⟩ => ⟨S384x384, .bf16⟩
  | .local _ .vmem, ⟨7, _⟩ => ⟨S1x384, .f32⟩
  | .local _ .vmem, ⟨8, _⟩ => ⟨S128x384, .bf16⟩
  | .local _ .vmem, ⟨9, _⟩ => ⟨S1x384, .f32⟩
  | .local _ .vmem, ⟨10, _⟩ => ⟨S1024x128, .f32⟩
  | .local _ .vmem, ⟨11, _⟩ => ⟨S1024x128, .f32⟩
  | _, _ => ⟨S4x65536x386, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x386 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S4x65536x386_S262144x386 : S4x65536x386.ShapeCasts S262144x386
  shapeCasts_S4x65536_S262144x1 : S4x65536.ShapeCasts S262144x1
  shapeCasts_S128_S1x128 : S128.ShapeCasts S1x128
  shapeCasts_S384_S1x384 : S384.ShapeCasts S1x384
  transposes_S384x384_S384x384_1_0 : S384x384.Transposes [1, 0] S384x384
  bitsLt_bf16_f32 : FTy.bits .bf16 < FTy.bits .f32
  transposes_S384x128_S128x384_1_0 : S384x128.Transposes [1, 0] S128x384
  inb_S1024x386_S1024x386_0_0 : ∀ a, (![0, 0] : Fin 2 → Nat) a + S1024x386.size a ≤ S1024x386.size a
  h_S1024x386 : 0 < S1024x386.numel
  shapeCasts_S1024x386_S1024x386 : S1024x386.ShapeCasts S1024x386
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  slices_S1024x386_o0_0_S1024x1 : S1024x386.Slices ![0, 0] S1024x1
  slices_S1024x386_o0_2_S1024x256 : S1024x386.Slices ![0, 2] S1024x256
  slices_S1024x386_o0_258_S1024x128 : S1024x386.Slices ![0, 258] S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1024x1_S1024x128 : S1024x1.Broadcasts S1024x128
  broadcasts_S1x128_S1024x128 : S1x128.Broadcasts S1024x128
  concatenates_S1024x256_S1024x128_S1024x384_d1 : Shape.Concatenates [S1024x256, S1024x128] S1024x384 1
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1024x384 : S1x384.Broadcasts S1024x384
  slices_S1024x384_o0_0_S1024x128 : S1024x384.Slices ![0, 0] S1024x128
  slices_S1024x384_o0_128_S1024x128 : S1024x384.Slices ![0, 128] S1024x128
  slices_S1024x384_o0_256_S1024x128 : S1024x384.Slices ![0, 256] S1024x128
  inb_S1024x128_S1024x128_0_0 : ∀ a, (![0, 0] : Fin 2 → Nat) a + S1024x128.size a ≤ S1024x128.size a
  h_S1024x128 : 0 < S1024x128.numel
  dot_S1024x384_S384x384_S1024x384_1_0_0_1_n_n_wf : DotDims.WF S1024x384 S384x384 S1024x384 [1] [0] [0] [1] [] []
  dot_S1024x128_S128x384_S1024x384_1_0_0_1_n_n_wf : DotDims.WF S1024x128 S128x384 S1024x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x386.size a ≤ S262144x386.size a
  hwx0_0 : ∀ i : grid0.Coords, EltTy.bits .f32 = 32 ∨ (Rect.block (s := S262144x386) S1024x386.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S262144x1.size a
  hwx0_1 : ∀ i : grid0.Coords, EltTy.bits .f32 = 32 ∨ (Rect.block (s := S262144x1) S1024x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384x384.size a ≤ S384x384.size a
  hwx0_4 : ∀ i : grid0.Coords, EltTy.bits .bf16 = 32 ∨ (Rect.block (s := S384x384) S384x384.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x384.size a ≤ S128x384.size a
  hwx0_6 : ∀ i : grid0.Coords, EltTy.bits .bf16 = 32 ∨ (Rect.block (s := S128x384) S128x384.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x384.size a ≤ S1x384.size a
  hwx0_7 : ∀ i : grid0.Coords, EltTy.bits .f32 = 32 ∨ (Rect.block (s := S1x384) S1x384.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S262144x128.size a
  hwx0_8 : ∀ i : grid0.Coords, EltTy.bits .f32 = 32 ∨ (Rect.block (s := S262144x128) S1024x128.size (cc0_transform_8 i) (hinb0_8 i)).WholeWords (EltTy.packing .f32)

variable [Facts₀]

def dot_S1024x384_S384x384_S1024x384_1_0_0_1_n_n : DotDims S1024x384 S384x384 S1024x384 where
  lhsContracting := [1]
  rhsContracting := [0]
  lhsNonContracting := [0]
  rhsNonContracting := [1]
  lhsBatch := []
  rhsBatch := []
  wf := dot_S1024x384_S384x384_S1024x384_1_0_0_1_n_n_wf
def dot_S1024x128_S128x384_S1024x384_1_0_0_1_n_n : DotDims S1024x128 S128x384 S1024x384 where
  lhsContracting := [1]
  rhsContracting := [0]
  lhsNonContracting := [0]
  rhsNonContracting := [1]
  lhsBatch := []
  rhsBatch := []
  wf := dot_S1024x128_S128x384_S1024x384_1_0_0_1_n_n_wf

abbrev win0_0 : Pipeline.Window sig grid0 :=
  Pipeline.Window.ofSpec (Memref.whole main_v0) S1024x386.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S384x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S128x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1024x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x65536x386 : Shape := ⟨3, ![4, 65536, 386]⟩
abbrev S4x65536 : Shape := ⟨2, ![4, 65536]⟩
abbrev S128 : Shape := ⟨1, ![128]⟩
abbrev S384x384 : Shape := ⟨2, ![384, 384]⟩
abbrev S384 : Shape := ⟨1, ![384]⟩
abbrev S384x128 : Shape := ⟨2, ![384, 128]⟩
abbrev S262144x386 : Shape := ⟨2, ![262144, 386]⟩
abbrev S262144 : Shape := ⟨1, ![262144]⟩
abbrev S262144x1 : Shape := ⟨2, ![262144, 1]⟩
abbrev S262144x256 : Shape := ⟨2, ![262144, 256]⟩
abbrev S262144x128 : Shape := ⟨2, ![262144, 128]⟩
abbrev S1x128 : Shape := ⟨2, ![1, 128]⟩
abbrev S262144x384 : Shape := ⟨2, ![262144, 384]⟩
abbrev S1x384 : Shape := ⟨2, ![1, 384]⟩
abbrev S128x384 : Shape := ⟨2, ![128, 384]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S4x65536x386, .f32⟩
  | .hbm, ⟨1, _⟩ => ⟨S4x65536, .f32⟩
  | .hbm, ⟨2, _⟩ => ⟨S128, .f32⟩
  | .hbm, ⟨3, _⟩ => ⟨S128, .f32⟩
  | .hbm, ⟨4, _⟩ => ⟨S384x384, .f32⟩
  | .hbm, ⟨5, _⟩ => ⟨S384, .f32⟩
  | .hbm, ⟨6, _⟩ => ⟨S384x128, .f32⟩
  | .hbm, ⟨7, _⟩ => ⟨S384, .f32⟩
  | .hbm, ⟨8, _⟩ => ⟨S262144x386, .f32⟩
  | .hbm, ⟨9, _⟩ => ⟨S262144, .f32⟩
  | .hbm, ⟨10, _⟩ => ⟨S262144x1, .f32⟩
  | .hbm, ⟨11, _⟩ => ⟨S262144, .f32⟩
  | .hbm, ⟨12, _⟩ => ⟨S262144x256, .f32⟩
  | .hbm, ⟨13, _⟩ => ⟨S262144x128, .f32⟩
  | .hbm, ⟨14, _⟩ => ⟨S262144, .f32⟩
  | .hbm, ⟨15, _⟩ => ⟨S262144x1, .f32⟩
  | .hbm, ⟨16, _⟩ => ⟨S1x128, .f32⟩
  | .hbm, ⟨17, _⟩ => ⟨S262144x128, .f32⟩
  | .hbm, ⟨18, _⟩ => ⟨S262144x128, .f32⟩
  | .hbm, ⟨19, _⟩ => ⟨S262144x128, .f32⟩
  | .hbm, ⟨20, _⟩ => ⟨S1x128, .f32⟩
  | .hbm, ⟨21, _⟩ => ⟨S262144x128, .f32⟩
  | .hbm, ⟨22, _⟩ => ⟨S262144x128, .f32⟩
  | .hbm, ⟨23, _⟩ => ⟨S262144x128, .f32⟩
  | .hbm, ⟨24, _⟩ => ⟨S262144x384, .f32⟩
  | .hbm, ⟨25, _⟩ => ⟨S384x384, .f32⟩
  | .hbm, ⟨26, _⟩ => ⟨S262144x384, .f32⟩
  | .hbm, ⟨27, _⟩ => ⟨S1x384, .f32⟩
  | .hbm, ⟨28, _⟩ => ⟨S262144x384, .f32⟩
  | .hbm, ⟨29, _⟩ => ⟨S262144x384, .f32⟩
  | .hbm, ⟨30, _⟩ => ⟨S128x384, .f32⟩
  | .hbm, ⟨31, _⟩ => ⟨S262144x384, .f32⟩
  | .hbm, ⟨32, _⟩ => ⟨S1x384, .f32⟩
  | .hbm, ⟨33, _⟩ => ⟨S262144x384, .f32⟩
  | .hbm, ⟨34, _⟩ => ⟨S262144x384, .f32⟩
  | .hbm, ⟨35, _⟩ => ⟨S262144x128, .f32⟩
  | .hbm, ⟨36, _⟩ => ⟨S262144x128, .f32⟩
  | .hbm, ⟨37, _⟩ => ⟨S262144x128, .f32⟩
  | .hbm, ⟨38, _⟩ => ⟨S262144x128, .f32⟩
  | .hbm, ⟨39, _⟩ => ⟨S262144x128, .f32⟩
  | .hbm, ⟨40, _⟩ => ⟨S262144x128, .f32⟩
  | .hbm, ⟨41, _⟩ => ⟨S262144x128, .f32⟩
  | .hbm, ⟨42, _⟩ => ⟨S262144x128, .f32⟩
  | .hbm, ⟨43, _⟩ => ⟨S262144x128, .f32⟩
  | .hbm, ⟨44, _⟩ => ⟨S_, .f32⟩
  | .hbm, ⟨45, _⟩ => ⟨S262144x128, .f32⟩
  | .hbm, ⟨46, _⟩ => ⟨S262144x128, .f32⟩
  | .hbm, ⟨47, _⟩ => ⟨S_, .f32⟩
  | .hbm, ⟨48, _⟩ => ⟨S262144x128, .f32⟩
  | .hbm, ⟨49, _⟩ => ⟨S262144x128, .f32⟩
  | .hbm, ⟨50, _⟩ => ⟨S262144x128, .f32⟩
  | .hbm, ⟨51, _⟩ => ⟨S262144x128, .f32⟩
  | .hbm, ⟨52, _⟩ => ⟨S262144x128, .f32⟩
  | .hbm, ⟨53, _⟩ => ⟨S_, .f32⟩
  | .hbm, ⟨54, _⟩ => ⟨S262144x128, .f32⟩
  | .hbm, ⟨55, _⟩ => ⟨S262144x128, .f32⟩
  | .hbm, ⟨56, _⟩ => ⟨S_, .f32⟩
  | .hbm, ⟨57, _⟩ => ⟨S262144x128, .f32⟩
  | .hbm, ⟨58, _⟩ => ⟨S262144x128, .f32⟩
  | .hbm, ⟨59, _⟩ => ⟨S262144x128, .f32⟩
  | .hbm, ⟨60, _⟩ => ⟨S262144x128, .f32⟩
  | .hbm, ⟨61, _⟩ => ⟨S262144x128, .f32⟩
  | .hbm, ⟨62, _⟩ => ⟨S_, .f32⟩
  | .hbm, ⟨63, _⟩ => ⟨S262144x128, .f32⟩
  | .hbm, ⟨64, _⟩ => ⟨S262144x128, .f32⟩
  | .hbm, ⟨65, _⟩ => ⟨S262144x128, .f32⟩
  | .hbm, ⟨66, _⟩ => ⟨S262144x128, .f32⟩
  | .hbm, ⟨67, _⟩ => ⟨S262144x128, .f32⟩
  | _, _ => ⟨S4x65536x386, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst : Ref sig .tc := ⟨.hbm, 44, rfl⟩
abbrev main_v36 : Ref sig .tc := ⟨.hbm, 45, rfl⟩
abbrev main_v37 : Ref sig .tc := ⟨.hbm, 46, rfl⟩
abbrev main_cst_0 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_1 : Ref sig .tc := ⟨.hbm, 53, rfl⟩
abbrev main_v43 : Ref sig .tc := ⟨.hbm, 54, rfl⟩
abbrev main_v44 : Ref sig .tc := ⟨.hbm, 55, rfl⟩
abbrev main_cst_2 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_3 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]

class Facts₀ : Prop where
  shapeCasts_S4x65536x386_S262144x386 : S4x65536x386.ShapeCasts S262144x386
  shapeCasts_S4x65536_S262144 : S4x65536.ShapeCasts S262144
  slices_S262144x386_S262144x1_0_0 : S262144x386.Slices ![0, 0] S262144x1
  shapeCasts_S262144x1_S262144 : S262144x1.ShapeCasts S262144
  slices_S262144x386_S262144x256_0_2 : S262144x386.Slices ![0, 2] S262144x256
  slices_S262144x386_S262144x128_0_258 : S262144x386.Slices ![0, 258] S262144x128
  bcast_S262144_S262144x1_0 : S262144.BroadcastsInDim S262144x1 (![0] : Fin 1 → Fin S262144x1.rank)
  bcast_S128_S1x128_1 : S128.BroadcastsInDim S1x128 (![1] : Fin 1 → Fin S1x128.rank)
  bcast_S262144x1_S262144x128_0_1 : S262144x1.BroadcastsInDim S262144x128 (![0, 1] : Fin 2 → Fin S262144x128.rank)
  bcast_S1x128_S262144x128_0_1 : S1x128.BroadcastsInDim S262144x128 (![0, 1] : Fin 2 → Fin S262144x128.rank)
  concatenates_S262144x256_S262144x128_S262144x384_d1 : Shape.Concatenates [S262144x256, S262144x128] S262144x384 1
  transposes_S384x384_S384x384_1_0 : S384x384.Transposes [1, 0] S384x384
  bcast_S384_S1x384_1 : S384.BroadcastsInDim S1x384 (![1] : Fin 1 → Fin S1x384.rank)
  bcast_S1x384_S262144x384_0_1 : S1x384.BroadcastsInDim S262144x384 (![0, 1] : Fin 2 → Fin S262144x384.rank)
  transposes_S384x128_S128x384_1_0 : S384x128.Transposes [1, 0] S128x384
  slices_S262144x384_S262144x128_0_0 : S262144x384.Slices ![0, 0] S262144x128
  slices_S262144x384_S262144x128_0_128 : S262144x384.Slices ![0, 128] S262144x128
  slices_S262144x384_S262144x128_0_256 : S262144x384.Slices ![0, 256] S262144x128
  bcast_S_S262144x128 : S_.BroadcastsInDim S262144x128 (![] : Fin 0 → Fin S262144x128.rank)
  dot_S262144x384_S384x384_S262144x384_1_0_0_1_n_n_wf : DotDims.WF S262144x384 S384x384 S262144x384 [1] [0] [0] [1] [] []
  dot_S262144x128_S128x384_S262144x384_1_0_0_1_n_n_wf : DotDims.WF S262144x128 S128x384 S262144x384 [1] [0] [0] [1] [] []

variable [Facts₀]

def dot_S262144x384_S384x384_S262144x384_1_0_0_1_n_n : DotDims S262144x384 S384x384 S262144x384 where
  lhsContracting := [1]
  rhsContracting := [0]
  lhsNonContracting := [0]
  rhsNonContracting := [1]
  lhsBatch := []
  rhsBatch := []
  wf := dot_S262144x384_S384x384_S262144x384_1_0_0_1_n_n_wf
def dot_S262144x128_S128x384_S262144x384_1_0_0_1_n_n : DotDims S262144x128 S128x384 S262144x384 where
  lhsContracting := [1]
  rhsContracting := [0]
  lhsNonContracting := [0]
  rhsNonContracting := [1]
  lhsBatch := []
  rhsBatch := []
  wf := dot_S262144x128_S128x384_S262144x384_1_0_0_1_n_n_wf

class Facts : Prop extends Facts₀ where

variable [Facts]
-- ==== Proof.GruCell.lean ====
/-
  The function both programs compute, row by row.

  A row of the flattened input holds 386 numbers: entry 0 is the time of the row's last update, entries
  2 … 257 the 256 mail features, entries 258 … 385 the 128 memory values `h`.  With the row's event time
  `s`, the time encoding is `cos ((s - d 0) · w k + b k)` for the 128 frequencies `w` and phases `b`, and the
  GRU input `x` is the mail features followed by the time encoding (384 numbers).  The two gate
  pre-activations are the affine maps
      gi c = (∑ k, x k · W_ih c k) + b_ih c        gh c = (∑ k, h k · W_hh c k) + b_hh c        (c < 384),
  and with `σ` the logistic function the new memory value at column `j < 128` is
      r = σ (gi j + gh j),   z = σ (gi (128 + j) + gh (128 + j)),   n = tanh (gi (256 + j) + r · gh (256 + j)),
      (1 - z) · n + z · h j.
  Everything is over the extended reals, with their own sum, product and difference, so no law used below
  needs the entries to be finite.  The constant `1` is kept as the word both programs spell it with.
-/
import Idealize.ShloMosaic.PureOps.Ideal
import Idealize.ShloMosaic.PureOps.Ideal.Laws
import Idealize.ShloMosaic.Lib.ValueIdx

noncomputable section

namespace Cert.Gru

open Idealize.ShloMosaic Idealize.ShloMosaic.ValueIdx
open scoped BigOperators

/-- The word of `1.0`, as an extended real. -/
abbrev one : EReal := Ideal.ofBits .f32 0x3F800000#32

/-- The word of `1.0` denotes the number one. -/
theorem one_eq : one = 1 := by
  simp [one, Ideal.ofBits, Ideal.ieee, -EReal.coe_mul]; norm_num

/-- The logistic function spelt with negation, exponential, sum and quotient over the word of `1.0` is the
    logistic function: `1 / (1 + e^(-x))` on every extended real. -/
theorem logistic_spelt (x : EReal) : Ideal.div one (one + Ideal.exp (-x)) = Ideal.logistic x := by
  rw [one_eq]; rfl

/-- The GRU input of one row: its 256 mail features, then the 128 time features. -/
def xin (d : Fin 386 → EReal) (s : EReal) (tw tb : Fin 128 → EReal) (k : Fin 384) : EReal :=
  if h : k.val < 256 then d ⟨k.val + 2, by omega⟩
  else Ideal.cos ((s - d ⟨0, by decide⟩) * tw ⟨k.val - 256, by omega⟩ + tb ⟨k.val - 256, by omega⟩)

theorem xin_mail (d : Fin 386 → EReal) (s : EReal) (tw tb : Fin 128 → EReal) (k : Fin 384) (h : k.val < 256) :
    xin d s tw tb k = d ⟨k.val + 2, by omega⟩ := by
  unfold xin; rw [dif_pos h]

theorem xin_time (d : Fin 386 → EReal) (s : EReal) (tw tb : Fin 128 → EReal) (k : Fin 384) (h : 256 ≤ k.val) :
    xin d s tw tb k
      = Ideal.cos ((s - d ⟨0, by decide⟩) * tw ⟨k.val - 256, by omega⟩ + tb ⟨k.val - 256, by omega⟩) := by
  unfold xin; rw [dif_neg (by omega)]

/-- The input gates' pre-activation at column `c`. -/
def gateI (d : Fin 386 → EReal) (s : EReal) (tw tb : Fin 128 → EReal) (wih : Fin 384 → Fin 384 → EReal)
    (bih : Fin 384 → EReal) (c : Fin 384) : EReal :=
  (∑ k : Fin 384, xin d s tw tb k * wih c k) + bih c

/-- The hidden gates' pre-activation at column `c`: over the row's 128 memory values. -/
def gateH (d : Fin 386 → EReal) (whh : Fin 384 → Fin 128 → EReal) (bhh : Fin 384 → EReal) (c : Fin 384) : EReal :=
  (∑ k : Fin 128, d ⟨k.val + 258, by omega⟩ * whh c k) + bhh c

/-- The GRU cell's combination of the six gate values and the old memory value. -/
def combine (ir iz inn hr hz hn h : EReal) : EReal :=
  (one - Ideal.logistic (iz + hz)) * Ideal.tanh (inn + Ideal.logistic (ir + hr) * hn) + Ideal.logistic (iz + hz) * h

/-- The new memory value of one row at column `j`. -/
def cell (d : Fin 386 → EReal) (s : EReal) (tw tb : Fin 128 → EReal) (wih : Fin 384 → Fin 384 → EReal)
    (bih : Fin 384 → EReal) (whh : Fin 384 → Fin 128 → EReal) (bhh : Fin 384 → EReal) (j : Fin 128) : EReal :=
  combine (gateI d s tw tb wih bih ⟨j.val, by omega⟩) (gateI d s tw tb wih bih ⟨j.val + 128, by omega⟩)
    (gateI d s tw tb wih bih ⟨j.val + 256, by omega⟩)
    (gateH d whh bhh ⟨j.val, by omega⟩) (gateH d whh bhh ⟨j.val + 128, by omega⟩) (gateH d whh bhh ⟨j.val + 256, by omega⟩)
    (d ⟨j.val + 258, by omega⟩)

/-! ## The whole result as one function of the eight arguments -/

/-- Row `R` of the flattened data: row `R % 65536` of split `R / 65536`. -/
def dataRow (x0 : (⟨3, ![4, 65536, 386]⟩ : Shape).Idx → EReal) (R : Fin 262144) (q : Fin 386) : EReal :=
  x0 (ix3 (⟨R.val / 65536, by omega⟩ : Fin 4) (⟨R.val % 65536, by omega⟩ : Fin 65536) q)

/-- The event time of flattened row `R`. -/
def timeRow (x1 : (⟨2, ![4, 65536]⟩ : Shape).Idx → EReal) (R : Fin 262144) : EReal :=
  x1 (ix2 (⟨R.val / 65536, by omega⟩ : Fin 4) (⟨R.val % 65536, by omega⟩ : Fin 65536))

/-- The result: entry `(R, j)` is the cell's value for flattened row `R` at column `j`. -/
def result (x0 : (⟨3, ![4, 65536, 386]⟩ : Shape).Idx → EReal) (x1 : (⟨2, ![4, 65536]⟩ : Shape).Idx → EReal)
    (x2 x3 : (⟨1, ![128]⟩ : Shape).Idx → EReal) (x4 : (⟨2, ![384, 384]⟩ : Shape).Idx → EReal)
    (x5 : (⟨1, ![384]⟩ : Shape).Idx → EReal) (x6 : (⟨2, ![384, 128]⟩ : Shape).Idx → EReal)
    (x7 : (⟨1, ![384]⟩ : Shape).Idx → EReal) : (⟨2, ![262144, 128]⟩ : Shape).Idx → EReal := fun i =>
  cell (dataRow x0 (i 0)) (timeRow x1 (i 0)) (fun k => x2 (ix1 k)) (fun k => x3 (ix1 k))
    (fun c k => x4 (ix2 c k)) (fun c => x5 (ix1 c)) (fun c k => x6 (ix2 c k)) (fun c => x7 (ix1 c)) (i 1)

end Cert.Gru

end
-- ==== Proof.KerBody.lean ====
/-
  What the kernel body computes from its eight loaded blocks, read at an index.

  At one grid point the body holds 1024 rows.  Row `r` of the data block `P0` is a row of 386 entries, `P1 (r, 0)`
  its event time, `P2` and `P3` the frequencies and phases (one row of 128), `P4` (384 × 384) and `P6` (128 × 384)
  the two weight matrices already transposed, `P5` and `P7` the two biases (one row of 384).  Read at row `r`:
  the joined GRU input is `Gru.xin` of the row; each matrix product into a zero accumulator is, over the
  extended reals, the plain sum over the contracted index (a change of float format is the identity), so the
  two affine maps are `Gru.gateI` and `Gru.gateH` of the row with the weights read at `(k, c)`; and the block
  the body leaves, `E8`, is at `(r, j)` the cell's value of row `r` at column `j`.
-/
import proofs.«114836_j10642928959816_1_alg».proof.Proof.Gen.KernelIdeal.Value
import proofs.«114836_j10642928959816_1_alg».proof.Proof.GruCell
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Cert.KernelIdeal.Value
open Idealize.ShloMosaic Idealize.ShloMosaic.ValueIdx
open scoped BigOperators

/-! ## The time features and the joined GRU input -/

/-- The block of time features: the cosine of (event time − last update) · frequency + phase. -/
def timeFeat (P0 : Vec Ideal S1024x386 .f32) (P1 : Vec Ideal S1024x1 .f32) (P2 P3 : Vec Ideal S1x128 .f32) :
    FVec Ideal S1024x128 .f32 :=
  cos (addf (mulf (broadcastTo S1024x128 (subf (shapeCast S1024x1 P1 shapeCasts_S1024x1_S1024x1)
      (extractStridedSlice S1024x1 ![0, 0] (k0_pay2 P0) slices_S1024x386_o0_0_S1024x1)) broadcasts_S1024x1_S1024x128)
    (broadcastTo S1024x128 (shapeCast S1x128 P2 shapeCasts_S1x128_S1x128) broadcasts_S1x128_S1024x128))
    (broadcastTo S1024x128 (shapeCast S1x128 P3 shapeCasts_S1x128_S1x128) broadcasts_S1x128_S1024x128))

/-- The block of GRU inputs: the mail features joined with the time features along the columns. -/
def xBlock (P0 : Vec Ideal S1024x386 .f32) (P1 : Vec Ideal S1024x1 .f32) (P2 P3 : Vec Ideal S1x128 .f32) :
    FVec Ideal S1024x384 .f32 :=
  concatenate S1024x384 1 [⟨S1024x256, extractStridedSlice S1024x256 ![0, 2] (k0_pay2 P0) slices_S1024x386_o0_2_S1024x256⟩,
    ⟨S1024x128, timeFeat P0 P1 P2 P3⟩] concatenates_S1024x256_S1024x128_S1024x384_d1

/-- The data block read through its (identity) shape cast. -/
theorem pay2_apply (P0 : Vec Ideal S1024x386 .f32) : k0_pay2 P0 = P0 := by
  unfold k0_pay2
  exact shapeCast_self P0 _

theorem timeFeat_apply (P0 : Vec Ideal S1024x386 .f32) (P1 : Vec Ideal S1024x1 .f32) (P2 P3 : Vec Ideal S1x128 .f32)
    (r : Fin 1024) (k : Fin 128) :
    timeFeat P0 P1 P2 P3 (ix2 r k)
      = Ideal.cos ((P1 (ix2 r (0 : Fin 1)) - P0 (ix2 r (⟨0, by decide⟩ : Fin 386))) * P2 (ix2 (0 : Fin 1) k)
          + P3 (ix2 (0 : Fin 1) k)) := by
  have hd : broadcastTo S1024x128 (subf (shapeCast S1024x1 P1 shapeCasts_S1024x1_S1024x1)
      (extractStridedSlice S1024x1 ![0, 0] (k0_pay2 P0) slices_S1024x386_o0_0_S1024x1)) broadcasts_S1024x1_S1024x128 (ix2 r k)
      = P1 (ix2 r (0 : Fin 1)) - P0 (ix2 r (⟨0, by decide⟩ : Fin 386)) := by
    refine (broadcastTo_apply _ broadcasts_S1024x1_S1024x128 (ix2 r k) (ix2 r (0 : Fin 1)) (fun a => match a with
      | ⟨0, _⟩ => by show r.val = if (1024 : Nat) = 1 then 0 else r.val; rw [if_neg (by decide)]
      | ⟨1, _⟩ => by show 0 = if (1 : Nat) = 1 then 0 else k.val; rw [if_pos rfl])).trans ?_
    show shapeCast S1024x1 P1 shapeCasts_S1024x1_S1024x1 (ix2 r (0 : Fin 1))
      - extractStridedSlice S1024x1 ![0, 0] (k0_pay2 P0) slices_S1024x386_o0_0_S1024x1 (ix2 r (0 : Fin 1)) = _
    rw [shapeCast_self, pay2_apply]
    refine congrArg (P1 (ix2 r (0 : Fin 1)) - ·) ?_
    exact extractStridedSlice_apply ![0, 0] P0 slices_S1024x386_o0_0_S1024x1 (ix2 r (0 : Fin 1))
      (ix2 r (⟨0, by decide⟩ : Fin 386)) (fun a => match a with
        | ⟨0, _⟩ => by show r.val = 0 + r.val; omega
        | ⟨1, _⟩ => by show 0 = 0 + 0; rfl)
  have hw : broadcastTo S1024x128 (shapeCast S1x128 P2 shapeCasts_S1x128_S1x128) broadcasts_S1x128_S1024x128 (ix2 r k)
      = P2 (ix2 (0 : Fin 1) k) := by
    rw [shapeCast_self]
    exact broadcastTo_apply _ broadcasts_S1x128_S1024x128 (ix2 r k) (ix2 (0 : Fin 1) k) (fun a => match a with
      | ⟨0, _⟩ => by show 0 = if (1 : Nat) = 1 then 0 else r.val; rw [if_pos rfl]
      | ⟨1, _⟩ => by show k.val = if (128 : Nat) = 1 then 0 else k.val; rw [if_neg (by decide)])
  have hb : broadcastTo S1024x128 (shapeCast S1x128 P3 shapeCasts_S1x128_S1x128) broadcasts_S1x128_S1024x128 (ix2 r k)
      = P3 (ix2 (0 : Fin 1) k) := by
    rw [shapeCast_self]
    exact broadcastTo_apply _ broadcasts_S1x128_S1024x128 (ix2 r k) (ix2 (0 : Fin 1) k) (fun a => match a with
      | ⟨0, _⟩ => by show 0 = if (1 : Nat) = 1 then 0 else r.val; rw [if_pos rfl]
      | ⟨1, _⟩ => by show k.val = if (128 : Nat) = 1 then 0 else k.val; rw [if_neg (by decide)])
  unfold timeFeat
  show Ideal.cos (_ * _ + _) = _
  rw [hd, hw, hb]

/-- The GRU input block at `(r, k)` is the row's GRU input at `k`. -/
theorem xBlock_apply (P0 : Vec Ideal S1024x386 .f32) (P1 : Vec Ideal S1024x1 .f32) (P2 P3 : Vec Ideal S1x128 .f32)
    (r : Fin 1024) (k : Fin 384) :
    xBlock P0 P1 P2 P3 (ix2 r k)
      = Cert.Gru.xin (fun q => P0 (ix2 r q)) (P1 (ix2 r (0 : Fin 1))) (fun k => P2 (ix2 (0 : Fin 1) k))
          (fun k => P3 (ix2 (0 : Fin 1) k)) k := by
  unfold xBlock
  by_cases h : k.val < 256
  · rw [Cert.Gru.xin_mail _ _ _ _ k h]
    refine (concatenate_pair_apply_left (s₁ := S1024x256) (s₂ := S1024x128) (1 : Fin S1024x384.rank) _ _ _ (ix2 r k) rfl
      (ix2 r (⟨k.val, h⟩ : Fin 256)) (fun b => match b with | ⟨0, _⟩ => rfl | ⟨1, _⟩ => rfl)).trans ?_
    rw [pay2_apply]
    exact extractStridedSlice_apply ![0, 2] P0 slices_S1024x386_o0_2_S1024x256 (ix2 r (⟨k.val, h⟩ : Fin 256))
      (ix2 r (⟨k.val + 2, by omega⟩ : Fin 386)) (fun a => match a with
        | ⟨0, _⟩ => by show r.val = 0 + r.val; omega
        | ⟨1, _⟩ => by show k.val + 2 = 2 + k.val; omega)
  · have h' : 256 ≤ k.val := Nat.le_of_not_lt h
    have hk := k.isLt
    rw [Cert.Gru.xin_time _ _ _ _ k h']
    refine (concatenate_pair_apply_right (s₁ := S1024x256) (s₂ := S1024x128) (1 : Fin S1024x384.rank) _ _ _ (ix2 r k) rfl rfl
      (ix2 r (⟨k.val - 256, by omega⟩ : Fin 128))
      (fun b hb => match b, hb with | ⟨0, _⟩, _ => rfl | ⟨1, _⟩, hb => absurd rfl hb) ?_).trans ?_
    · show (k.val - 256) + 256 = k.val
      omega
    · exact timeFeat_apply P0 P1 P2 P3 r _

/-! ## The two matrix products at an index -/

theorem lhsI_0 (i : S1024x384.Idx) (q : dot_S1024x384_S384x384_S1024x384_1_0_0_1_n_n.contr.Idx) :
    (dot_S1024x384_S384x384_S1024x384_1_0_0_1_n_n.lhsIdx i q 0).val = (i 0).val := by
  unfold DotDims.lhsIdx
  rw [dif_neg (show ¬(0 : Fin S1024x384.rank) ∈ dot_S1024x384_S384x384_S1024x384_1_0_0_1_n_n.lhsBatch by decide), dif_pos (show (0 : Fin S1024x384.rank) ∈ dot_S1024x384_S384x384_S1024x384_1_0_0_1_n_n.lhsNonContracting by decide)]
  rfl
theorem lhsI_1 (i : S1024x384.Idx) (q : dot_S1024x384_S384x384_S1024x384_1_0_0_1_n_n.contr.Idx) :
    (dot_S1024x384_S384x384_S1024x384_1_0_0_1_n_n.lhsIdx i q 1).val = (q ⟨0, by decide⟩).val :=
  dot_S1024x384_S384x384_S1024x384_1_0_0_1_n_n.lhsIdx_val_of_single rfl i q
theorem rhsI_0 (i : S1024x384.Idx) (q : dot_S1024x384_S384x384_S1024x384_1_0_0_1_n_n.contr.Idx) :
    (dot_S1024x384_S384x384_S1024x384_1_0_0_1_n_n.rhsIdx i q 0).val = (q ⟨0, by decide⟩).val :=
  dot_S1024x384_S384x384_S1024x384_1_0_0_1_n_n.rhsIdx_val_of_single rfl i q
theorem rhsI_1 (i : S1024x384.Idx) (q : dot_S1024x384_S384x384_S1024x384_1_0_0_1_n_n.contr.Idx) :
    (dot_S1024x384_S384x384_S1024x384_1_0_0_1_n_n.rhsIdx i q 1).val = (i 1).val := by
  unfold DotDims.rhsIdx
  rw [dif_neg (show ¬(1 : Fin S384x384.rank) ∈ dot_S1024x384_S384x384_S1024x384_1_0_0_1_n_n.rhsBatch by decide), dif_pos (show (1 : Fin S384x384.rank) ∈ dot_S1024x384_S384x384_S1024x384_1_0_0_1_n_n.rhsNonContracting by decide)]
  rfl

/-- A 1024 × 384 block times a 384 × 384 matrix into zero, at `(r, c)`: the sum over the 384 contracted entries. -/
theorem matI_apply (L : FVec Ideal S1024x384 .bf16) (W : FVec Ideal S384x384 .bf16) (r : Fin 1024) (c : Fin 384) :
    matmul dot_S1024x384_S384x384_S1024x384_1_0_0_1_n_n none L W (constant S1024x384 .f32 0x00000000#32) (ix2 r c)
      = ∑ k : Fin 384, L (ix2 r k) * W (ix2 k c) := by
  refine (Ideal.matmul_constant_zero_apply dot_S1024x384_S384x384_S1024x384_1_0_0_1_n_n none L W (ix2 r c)).trans ?_
  rw [← Equiv.sum_comp (ValueIdx.contrEquiv1 dot_S1024x384_S384x384_S1024x384_1_0_0_1_n_n 384 rfl rfl).symm]
  refine Finset.sum_congr rfl fun k _ => ?_
  have hk := ValueIdx.contrEquiv1_symm_val dot_S1024x384_S384x384_S1024x384_1_0_0_1_n_n 384 rfl rfl k
  have el : dot_S1024x384_S384x384_S1024x384_1_0_0_1_n_n.lhsIdx (ix2 r c) ((ValueIdx.contrEquiv1 dot_S1024x384_S384x384_S1024x384_1_0_0_1_n_n 384 rfl rfl).symm k) = ix2 r k := funext fun a => Fin.ext (by
    match a with
    | ⟨0, _⟩ => exact lhsI_0 _ _
    | ⟨1, _⟩ => exact (lhsI_1 _ _).trans hk)
  have er : dot_S1024x384_S384x384_S1024x384_1_0_0_1_n_n.rhsIdx (ix2 r c) ((ValueIdx.contrEquiv1 dot_S1024x384_S384x384_S1024x384_1_0_0_1_n_n 384 rfl rfl).symm k) = ix2 k c := funext fun a => Fin.ext (by
    match a with
    | ⟨0, _⟩ => exact (rhsI_0 _ _).trans hk
    | ⟨1, _⟩ => exact rhsI_1 _ _)
  rw [el, er]

theorem lhsH_0 (i : S1024x384.Idx) (q : dot_S1024x128_S128x384_S1024x384_1_0_0_1_n_n.contr.Idx) :
    (dot_S1024x128_S128x384_S1024x384_1_0_0_1_n_n.lhsIdx i q 0).val = (i 0).val := by
  unfold DotDims.lhsIdx
  rw [dif_neg (show ¬(0 : Fin S1024x128.rank) ∈ dot_S1024x128_S128x384_S1024x384_1_0_0_1_n_n.lhsBatch by decide), dif_pos (show (0 : Fin S1024x128.rank) ∈ dot_S1024x128_S128x384_S1024x384_1_0_0_1_n_n.lhsNonContracting by decide)]
  rfl
theorem lhsH_1 (i : S1024x384.Idx) (q : dot_S1024x128_S128x384_S1024x384_1_0_0_1_n_n.contr.Idx) :
    (dot_S1024x128_S128x384_S1024x384_1_0_0_1_n_n.lhsIdx i q 1).val = (q ⟨0, by decide⟩).val :=
  dot_S1024x128_S128x384_S1024x384_1_0_0_1_n_n.lhsIdx_val_of_single rfl i q
theorem rhsH_0 (i : S1024x384.Idx) (q : dot_S1024x128_S128x384_S1024x384_1_0_0_1_n_n.contr.Idx) :
    (dot_S1024x128_S128x384_S1024x384_1_0_0_1_n_n.rhsIdx i q 0).val = (q ⟨0, by decide⟩).val :=
  dot_S1024x128_S128x384_S1024x384_1_0_0_1_n_n.rhsIdx_val_of_single rfl i q
theorem rhsH_1 (i : S1024x384.Idx) (q : dot_S1024x128_S128x384_S1024x384_1_0_0_1_n_n.contr.Idx) :
    (dot_S1024x128_S128x384_S1024x384_1_0_0_1_n_n.rhsIdx i q 1).val = (i 1).val := by
  unfold DotDims.rhsIdx
  rw [dif_neg (show ¬(1 : Fin S128x384.rank) ∈ dot_S1024x128_S128x384_S1024x384_1_0_0_1_n_n.rhsBatch by decide), dif_pos (show (1 : Fin S128x384.rank) ∈ dot_S1024x128_S128x384_S1024x384_1_0_0_1_n_n.rhsNonContracting by decide)]
  rfl

/-- A 1024 × 128 block times a 128 × 384 matrix into zero, at `(r, c)`: the sum over the 128 contracted entries. -/
theorem matH_apply (L : FVec Ideal S1024x128 .bf16) (W : FVec Ideal S128x384 .bf16) (r : Fin 1024) (c : Fin 384) :
    matmul dot_S1024x128_S128x384_S1024x384_1_0_0_1_n_n none L W (constant S1024x384 .f32 0x00000000#32) (ix2 r c)
      = ∑ k : Fin 128, L (ix2 r k) * W (ix2 k c) := by
  refine (Ideal.matmul_constant_zero_apply dot_S1024x128_S128x384_S1024x384_1_0_0_1_n_n none L W (ix2 r c)).trans ?_
  rw [← Equiv.sum_comp (ValueIdx.contrEquiv1 dot_S1024x128_S128x384_S1024x384_1_0_0_1_n_n 128 rfl rfl).symm]
  refine Finset.sum_congr rfl fun k _ => ?_
  have hk := ValueIdx.contrEquiv1_symm_val dot_S1024x128_S128x384_S1024x384_1_0_0_1_n_n 128 rfl rfl k
  have el : dot_S1024x128_S128x384_S1024x384_1_0_0_1_n_n.lhsIdx (ix2 r c) ((ValueIdx.contrEquiv1 dot_S1024x128_S128x384_S1024x384_1_0_0_1_n_n 128 rfl rfl).symm k) = ix2 r k := funext fun a => Fin.ext (by
    match a with
    | ⟨0, _⟩ => exact lhsH_0 _ _
    | ⟨1, _⟩ => exact (lhsH_1 _ _).trans hk)
  have er : dot_S1024x128_S128x384_S1024x384_1_0_0_1_n_n.rhsIdx (ix2 r c) ((ValueIdx.contrEquiv1 dot_S1024x128_S128x384_S1024x384_1_0_0_1_n_n 128 rfl rfl).symm k) = ix2 k c := funext fun a => Fin.ext (by
    match a with
    | ⟨0, _⟩ => exact (rhsH_0 _ _).trans hk
    | ⟨1, _⟩ => exact rhsH_1 _ _)
  rw [el, er]

/-- A one-row bias broadcast down the 1024 rows, at `(r, c)`. -/
theorem bias_apply (B : Vec Ideal S1x384 .f32) (r : Fin 1024) (c : Fin 384) :
    broadcastTo S1024x384 (shapeCast S1x384 B shapeCasts_S1x384_S1x384) broadcasts_S1x384_S1024x384 (ix2 r c)
      = B (ix2 (0 : Fin 1) c) := by
  rw [shapeCast_self]
  exact broadcastTo_apply _ broadcasts_S1x384_S1024x384 (ix2 r c) (ix2 (0 : Fin 1) c) (fun a => match a with
    | ⟨0, _⟩ => by show 0 = if (1 : Nat) = 1 then 0 else r.val; rw [if_pos rfl]
    | ⟨1, _⟩ => by show c.val = if (384 : Nat) = 1 then 0 else c.val; rw [if_neg (by decide)])

/-! ## The two affine maps and the block the body leaves -/

/-- The input gates' pre-activation of the block at `(r, c)`. -/
theorem pay4_apply (P0 : Vec Ideal S1024x386 .f32) (P1 : Vec Ideal S1024x1 .f32) (P2 P3 : Vec Ideal S1x128 .f32)
    (P4 : Vec Ideal S384x384 .bf16) (P5 : Vec Ideal S1x384 .f32) (r : Fin 1024) (c : Fin 384) :
    k0_pay4 P0 P1 P2 P3 P4 P5 (ix2 r c)
      = Cert.Gru.gateI (fun q => P0 (ix2 r q)) (P1 (ix2 r (0 : Fin 1))) (fun k => P2 (ix2 (0 : Fin 1) k))
          (fun k => P3 (ix2 (0 : Fin 1) k)) (fun c k => P4 (ix2 k c)) (fun c => P5 (ix2 (0 : Fin 1) c)) c := by
  have e : k0_pay4 P0 P1 P2 P3 P4 P5
      = addf (matmul dot_S1024x384_S384x384_S1024x384_1_0_0_1_n_n none (truncf .bf16 (xBlock P0 P1 P2 P3) bitsLt_bf16_f32)
          (shapeCast S384x384 P4 shapeCasts_S384x384_S384x384) (constant S1024x384 .f32 0x00000000#32))
        (broadcastTo S1024x384 (shapeCast S1x384 P5 shapeCasts_S1x384_S1x384) broadcasts_S1x384_S1024x384) := rfl
  rw [e, addf_apply, matI_apply, bias_apply, shapeCast_self]
  unfold Cert.Gru.gateI
  refine congrArg (· + P5 (ix2 (0 : Fin 1) c)) (Finset.sum_congr rfl fun k _ => ?_)
  rw [truncf_apply, xBlock_apply]

/-- The hidden gates' pre-activation of the block at `(r, c)`. -/
theorem pay5_apply (P0 : Vec Ideal S1024x386 .f32) (P6 : Vec Ideal S128x384 .bf16) (P7 : Vec Ideal S1x384 .f32)
    (r : Fin 1024) (c : Fin 384) :
    k0_pay5 P0 P6 P7 (ix2 r c)
      = Cert.Gru.gateH (fun q => P0 (ix2 r q)) (fun c k => P6 (ix2 k c)) (fun c => P7 (ix2 (0 : Fin 1) c)) c := by
  have e : k0_pay5 P0 P6 P7
      = addf (matmul dot_S1024x128_S128x384_S1024x384_1_0_0_1_n_n none (truncf .bf16 (k0_pay3 P0) bitsLt_bf16_f32)
          (shapeCast S128x384 P6 shapeCasts_S128x384_S128x384) (constant S1024x384 .f32 0x00000000#32))
        (broadcastTo S1024x384 (shapeCast S1x384 P7 shapeCasts_S1x384_S1x384) broadcasts_S1x384_S1024x384) := rfl
  rw [e, addf_apply, matH_apply, bias_apply, shapeCast_self]
  unfold Cert.Gru.gateH
  refine congrArg (· + P7 (ix2 (0 : Fin 1) c)) (Finset.sum_congr rfl fun k _ => ?_)
  rw [truncf_apply]
  refine congrArg (· * P6 (ix2 k c)) ?_
  unfold k0_pay3
  rw [pay2_apply]
  exact extractStridedSlice_apply ![0, 258] P0 slices_S1024x386_o0_258_S1024x128 (ix2 r k)
    (ix2 r (⟨k.val + 258, by omega⟩ : Fin 386)) (fun a => match a with
      | ⟨0, _⟩ => by show r.val = 0 + r.val; omega
      | ⟨1, _⟩ => by show k.val + 258 = 258 + k.val; omega)

/-- The block the body leaves, at `(r, j)`: the cell's value of row `r` at column `j`. -/
theorem E8_apply (P0 : Vec Ideal S1024x386 .f32) (P1 : Vec Ideal S1024x1 .f32) (P2 P3 : Vec Ideal S1x128 .f32)
    (P4 : Vec Ideal S384x384 .bf16) (P5 : Vec Ideal S1x384 .f32) (P6 : Vec Ideal S128x384 .bf16)
    (P7 : Vec Ideal S1x384 .f32) (r : Fin 1024) (j : Fin 128) :
    E8 P0 P1 P2 P3 P4 P5 P6 P7 (ix2 r j)
      = Cert.Gru.cell (fun q => P0 (ix2 r q)) (P1 (ix2 r (0 : Fin 1))) (fun k => P2 (ix2 (0 : Fin 1) k))
          (fun k => P3 (ix2 (0 : Fin 1) k)) (fun c k => P4 (ix2 k c)) (fun c => P5 (ix2 (0 : Fin 1) c))
          (fun c k => P6 (ix2 k c)) (fun c => P7 (ix2 (0 : Fin 1) c)) j := by
  have hj := j.isLt
  have i0 : ix8_3 (ix2 r j) = ix2 r (⟨j.val, by omega⟩ : Fin 384) := by
    funext a; match a with | ⟨0, _⟩ => rfl | ⟨1, _⟩ => rfl
  have i1 : ix8_0 (ix2 r j) = ix2 r (⟨j.val + 128, by omega⟩ : Fin 384) := by
    funext a; match a with | ⟨0, _⟩ => rfl | ⟨1, _⟩ => rfl
  have i2 : ix8_2 (ix2 r j) = ix2 r (⟨j.val + 256, by omega⟩ : Fin 384) := by
    funext a; match a with | ⟨0, _⟩ => rfl | ⟨1, _⟩ => rfl
  have i8 : ix8_8 (ix2 r j) = ix2 r (⟨j.val + 258, by omega⟩ : Fin 386) := by
    funext a; match a with | ⟨0, _⟩ => rfl | ⟨1, _⟩ => rfl
  show (Cert.Gru.one - Ideal.logistic (k0_pay4 P0 P1 P2 P3 P4 P5 (ix8_0 (ix2 r j)) + k0_pay5 P0 P6 P7 (ix8_0 (ix2 r j))))
      * Ideal.tanh (k0_pay4 P0 P1 P2 P3 P4 P5 (ix8_2 (ix2 r j))
          + Ideal.logistic (k0_pay4 P0 P1 P2 P3 P4 P5 (ix8_3 (ix2 r j)) + k0_pay5 P0 P6 P7 (ix8_3 (ix2 r j)))
            * k0_pay5 P0 P6 P7 (ix8_2 (ix2 r j)))
      + Ideal.logistic (k0_pay4 P0 P1 P2 P3 P4 P5 (ix8_0 (ix2 r j)) + k0_pay5 P0 P6 P7 (ix8_0 (ix2 r j)))
        * P0 (ix8_8 (ix2 r j)) = _
  rw [i0, i1, i2, i8, pay4_apply, pay4_apply, pay4_apply, pay5_apply, pay5_apply, pay5_apply]
  rfl

end Cert.KernelIdeal.Body

end
-- ==== Proof.KerHost.lean ====
/-
  What the kernel's region finds in each window's array, read at an index.

  Before the region the host flattens `data` to 262144 rows of 386 entries and `data_ts` to a column of 262144
  times (flattened row `R` is row `R % 65536` of split `R / 65536`), views the two 128-vectors and the two
  384-vectors as one-row matrices, and transposes the two weight matrices (the change of float format after
  the transpose is the identity over the extended reals).  So the entry `(k, c)` of a transposed weight matrix
  is the entry `(c, k)` of the argument.
-/
import proofs.«114836_j10642928959816_1_alg».proof.Proof.Gen.KernelIdeal.Frame
import proofs.«114836_j10642928959816_1_alg».proof.Proof.GruCell
import Idealize.ShloMosaic.Lib.Pipeline.Value
import Idealize.ShloMosaic.Lib.ValueIdx
import Idealize.ShloMosaic.Lib.StableHlo.Run

noncomputable section

namespace Cert.KernelIdeal.Host

open Cert.KernelIdeal Cert.KernelIdeal.Gen
open Idealize.ShloMosaic Idealize.ShloMosaic.TcCoe Idealize.ShloMosaic.ValueIdx Idealize.ShloMosaic.StableHlo Idealize.SL.Sem

variable (m : (ℓ : Loc nD τ sig) → Buf (Elt Ideal) ℓ)

/-! ## Each array as the host operations' term of an argument -/

theorem v0_eq (c : Dev nD) : (V m c main_v0 : S262144x386.Idx → EReal)
    = shapeCast S262144x386 (m ((c : Thread nD τ).loc main_arg0)) shapeCasts_S4x65536x386_S262144x386 := by
  dsimp only [Gen.V, Gen.hostOps0]; after_results; rfl

theorem v1_eq (c : Dev nD) : (V m c main_v1 : S262144x1.Idx → EReal)
    = shapeCast S262144x1 (m ((c : Thread nD τ).loc main_arg1)) shapeCasts_S4x65536_S262144x1 := by
  dsimp only [Gen.V, Gen.hostOps0]; after_results; rfl

theorem v2_eq (c : Dev nD) : (V m c main_v2 : S1x128.Idx → EReal)
    = shapeCast S1x128 (m ((c : Thread nD τ).loc main_arg2)) shapeCasts_S128_S1x128 := by
  dsimp only [Gen.V, Gen.hostOps0]; after_results; rfl

theorem v3_eq (c : Dev nD) : (V m c main_v3 : S1x128.Idx → EReal)
    = shapeCast S1x128 (m ((c : Thread nD τ).loc main_arg3)) shapeCasts_S128_S1x128 := by
  dsimp only [Gen.V, Gen.hostOps0]; after_results; rfl

theorem v4_eq (c : Dev nD) : (V m c main_v4 : S1x384.Idx → EReal)
    = shapeCast S1x384 (m ((c : Thread nD τ).loc main_arg5)) shapeCasts_S384_S1x384 := by
  dsimp only [Gen.V, Gen.hostOps0]; after_results; rfl

theorem v5_eq (c : Dev nD) : (V m c main_v5 : S1x384.Idx → EReal)
    = shapeCast S1x384 (m ((c : Thread nD τ).loc main_arg7)) shapeCasts_S384_S1x384 := by
  dsimp only [Gen.V, Gen.hostOps0]; after_results; rfl

theorem v7_eq (c : Dev nD) : (V m c main_v7 : S384x384.Idx → EReal)
    = truncf (F := Ideal) .bf16 (transpose S384x384 [1, 0] (m ((c : Thread nD τ).loc main_arg4)) transposes_S384x384_S384x384_1_0) bitsLt_bf16_f32 := by
  dsimp only [Gen.V, Gen.hostOps0]; after_results

theorem v9_eq (c : Dev nD) : (V m c main_v9 : S128x384.Idx → EReal)
    = truncf (F := Ideal) .bf16 (transpose S128x384 [1, 0] (m ((c : Thread nD τ).loc main_arg6)) transposes_S384x128_S128x384_1_0) bitsLt_bf16_f32 := by
  dsimp only [Gen.V, Gen.hostOps0]; after_results

/-! ## Read at an index -/

/-- Entry `(R, q)` of the flattened data. -/
theorem flat_apply (c : Dev nD) (R : Fin 262144) (q : Fin 386) :
    V m c main_v0 (ix2 R q) = Cert.Gru.dataRow (m ((c : Thread nD τ).loc main_arg0)) R q := by
  have hR := R.isLt
  have hq := q.isLt
  rw [v0_eq]
  exact shapeCast_apply _ shapeCasts_S4x65536x386_S262144x386 (ix2 R q)
    (ix3 (⟨R.val / 65536, by omega⟩ : Fin 4) (⟨R.val % 65536, by omega⟩ : Fin 65536) q)
    (by rewrite [Shape.rowMajor_val_three, Shape.rowMajor_val_two]
        show (R.val / 65536 * 65536 + R.val % 65536) * 386 + q.val = R.val * 386 + q.val
        omega)

/-- Entry `(R, 0)` of the column of event times. -/
theorem time_apply (c : Dev nD) (R : Fin 262144) :
    V m c main_v1 (ix2 R (0 : Fin 1)) = Cert.Gru.timeRow (m ((c : Thread nD τ).loc main_arg1)) R := by
  have hR := R.isLt
  rw [v1_eq]
  exact shapeCast_apply _ shapeCasts_S4x65536_S262144x1 (ix2 R (0 : Fin 1))
    (ix2 (⟨R.val / 65536, by omega⟩ : Fin 4) (⟨R.val % 65536, by omega⟩ : Fin 65536))
    (by rewrite [Shape.rowMajor_val_two, Shape.rowMajor_val_two]
        show R.val / 65536 * 65536 + R.val % 65536 = R.val * 1 + 0
        omega)

/-- A 128-vector viewed as one row. -/
theorem row128_apply (x : S128.Idx → EReal) (k : Fin 128) :
    shapeCast S1x128 x shapeCasts_S128_S1x128 (ix2 (0 : Fin 1) k) = x (ix1 k) :=
  shapeCast_apply x shapeCasts_S128_S1x128 (ix2 (0 : Fin 1) k) (ix1 k)
    (by rewrite [Shape.rowMajor_val_one, Shape.rowMajor_val_two]
        show k.val = 0 * 128 + k.val
        omega)

/-- A 384-vector viewed as one row. -/
theorem row384_apply (x : S384.Idx → EReal) (k : Fin 384) :
    shapeCast S1x384 x shapeCasts_S384_S1x384 (ix2 (0 : Fin 1) k) = x (ix1 k) :=
  shapeCast_apply x shapeCasts_S384_S1x384 (ix2 (0 : Fin 1) k) (ix1 k)
    (by rewrite [Shape.rowMajor_val_one, Shape.rowMajor_val_two]
        show k.val = 0 * 384 + k.val
        omega)

theorem freq_apply (c : Dev nD) (k : Fin 128) :
    V m c main_v2 (ix2 (0 : Fin 1) k) = m ((c : Thread nD τ).loc main_arg2) (ix1 k) := by
  rw [v2_eq]; exact row128_apply _ k

theorem phase_apply (c : Dev nD) (k : Fin 128) :
    V m c main_v3 (ix2 (0 : Fin 1) k) = m ((c : Thread nD τ).loc main_arg3) (ix1 k) := by
  rw [v3_eq]; exact row128_apply _ k

theorem biasI_apply (c : Dev nD) (k : Fin 384) :
    V m c main_v4 (ix2 (0 : Fin 1) k) = m ((c : Thread nD τ).loc main_arg5) (ix1 k) := by
  rw [v4_eq]; exact row384_apply _ k

theorem biasH_apply (c : Dev nD) (k : Fin 384) :
    V m c main_v5 (ix2 (0 : Fin 1) k) = m ((c : Thread nD τ).loc main_arg7) (ix1 k) := by
  rw [v5_eq]; exact row384_apply _ k

/-- Entry `(k, g)` of the transposed `W_ih` is entry `(g, k)` of `W_ih`. -/
theorem weightI_apply (c : Dev nD) (k : Fin 384) (g : Fin 384) :
    V m c main_v7 (ix2 k g) = m ((c : Thread nD τ).loc main_arg4) (ix2 g k) := by
  rw [v7_eq, truncf_apply]
  exact transpose_apply [1, 0] _ transposes_S384x384_S384x384_1_0 (ix2 k g) (ix2 g k) (fun b => match b with
    | ⟨0, _⟩ => rfl
    | ⟨1, _⟩ => rfl)

/-- Entry `(k, g)` of the transposed `W_hh` is entry `(g, k)` of `W_hh`. -/
theorem weightH_apply (c : Dev nD) (k : Fin 128) (g : Fin 384) :
    V m c main_v9 (ix2 k g) = m ((c : Thread nD τ).loc main_arg6) (ix2 g k) := by
  rw [v9_eq, truncf_apply]
  exact transpose_apply [1, 0] _ transposes_S384x128_S128x384_1_0 (ix2 k g) (ix2 g k) (fun b => match b with
    | ⟨0, _⟩ => rfl
    | ⟨1, _⟩ => rfl)

end Cert.KernelIdeal.Host

end
-- ==== Proof.KerBlocks.lean ====
/-
  The kernel's result array is `Gru.result` of the eight arguments.

  The grid has 256 points; point `t` works on rows `1024·t … 1024·t + 1023` of the flattened data and of the
  event times, on the whole of the six small operands, and writes rows `1024·t … 1024·t + 1023` of the result.
  So row `r` of the blocks at point `t` is flattened row `1024·t + r`, the block the body leaves at `(r, j)` is
  the cell's value of that row at column `j`, what point `t` writes back is block `t` of `Gru.result`, and since
  row `R` lies in the block of point `R / 1024` the 256 blocks cover the result array.
-/
import proofs.«114836_j10642928959816_1_alg».proof.Proof.KerBody
import proofs.«114836_j10642928959816_1_alg».proof.Proof.KerHost

set_option maxRecDepth 16384

noncomputable section

namespace Cert.KernelIdeal.Blocks

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the data, the event times and the result move one block of rows per point;
    the six small operands stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem point_lt (t : Fin cfg0.N) : t.val < 256 := lt_of_lt_of_eq t.isLt N_0

/-- Flattened row of row `r` at point `t`. -/
abbrev rowAt (t : Fin cfg0.N) (r : Fin 1024) : Fin 262144 :=
  ⟨1024 * t.val + r.val, by have := point_lt t; have := r.isLt; omega⟩

/-! ## The input blocks at a point -/

theorem data_blk (c : Dev nD) (t : Fin cfg0.N) (r : Fin 1024) (q : Fin 386) :
    iblk m c 0 t (ix2 r q) = Cert.Gru.dataRow (m ((c : Thread nD τ).loc main_arg0)) (rowAt t r) q := by
  show V m c main_v0 (((cfg0.win 0).blk t).view.emb (ix2 r q)) = _
  have e : ((cfg0.win 0).blk t).view.emb (ix2 r q) = ix2 (rowAt t r) q := by
    obtain ⟨e0, e1, -⟩ := idx_facts t
    funext a; apply Fin.ext
    match a with
    | ⟨0, _⟩ => show win0_0.index t (0 : Fin 2) * 1024 + 1 * r.val = 1024 * t.val + r.val; omega
    | ⟨1, _⟩ => show win0_0.index t (1 : Fin 2) * 386 + 1 * q.val = q.val; omega
  rw [e]; exact Host.flat_apply m c _ q

theorem time_blk (c : Dev nD) (t : Fin cfg0.N) (r : Fin 1024) :
    iblk m c 1 t (ix2 r (0 : Fin 1)) = Cert.Gru.timeRow (m ((c : Thread nD τ).loc main_arg1)) (rowAt t r) := by
  show V m c main_v1 (((cfg0.win 1).blk t).view.emb (ix2 r (0 : Fin 1))) = _
  have e : ((cfg0.win 1).blk t).view.emb (ix2 r (0 : Fin 1)) = ix2 (rowAt t r) (0 : Fin 1) := by
    obtain ⟨-, -, e0, e1, -⟩ := idx_facts t
    funext a; apply Fin.ext
    match a with
    | ⟨0, _⟩ => show win0_1.index t (0 : Fin 2) * 1024 + 1 * r.val = 1024 * t.val + r.val; omega
    | ⟨1, _⟩ => show win0_1.index t (1 : Fin 2) * 1 + 1 * 0 = 0; omega
  rw [e]; exact Host.time_apply m c _

theorem freq_blk (c : Dev nD) (t : Fin cfg0.N) (k : Fin 128) :
    iblk m c 2 t (ix2 (0 : Fin 1) k) = (m ((c : Thread nD τ).loc main_arg2)) (ix1 k) := by
  show V m c main_v2 (((cfg0.win 2).blk t).view.emb (ix2 (0 : Fin 1) k)) = _
  have e : ((cfg0.win 2).blk t).view.emb (ix2 (0 : Fin 1) k) = ix2 (0 : Fin 1) k := by
    obtain ⟨-, -, -, -, e0, e1, -⟩ := idx_facts t
    funext a; apply Fin.ext
    match a with
    | ⟨0, _⟩ => show win0_2.index t (0 : Fin 2) * 1 + 1 * 0 = 0; omega
    | ⟨1, _⟩ => show win0_2.index t (1 : Fin 2) * 128 + 1 * k.val = k.val; omega
  rw [e]; exact Host.freq_apply m c k

theorem phase_blk (c : Dev nD) (t : Fin cfg0.N) (k : Fin 128) :
    iblk m c 3 t (ix2 (0 : Fin 1) k) = (m ((c : Thread nD τ).loc main_arg3)) (ix1 k) := by
  show V m c main_v3 (((cfg0.win 3).blk t).view.emb (ix2 (0 : Fin 1) k)) = _
  have e : ((cfg0.win 3).blk t).view.emb (ix2 (0 : Fin 1) k) = ix2 (0 : Fin 1) k := by
    obtain ⟨-, -, -, -, -, -, e0, e1, -⟩ := idx_facts t
    funext a; apply Fin.ext
    match a with
    | ⟨0, _⟩ => show win0_3.index t (0 : Fin 2) * 1 + 1 * 0 = 0; omega
    | ⟨1, _⟩ => show win0_3.index t (1 : Fin 2) * 128 + 1 * k.val = k.val; omega
  rw [e]; exact Host.phase_apply m c k

theorem weightI_blk (c : Dev nD) (t : Fin cfg0.N) (k : Fin 384) (g : Fin 384) :
    iblk m c 4 t (ix2 k g) = (m ((c : Thread nD τ).loc main_arg4)) (ix2 g k) := by
  show V m c main_v7 (((cfg0.win 4).blk t).view.emb (ix2 k g)) = _
  have e : ((cfg0.win 4).blk t).view.emb (ix2 k g) = ix2 k g := by
    obtain ⟨-, -, -, -, -, -, -, -, e0, e1, -⟩ := idx_facts t
    funext a; apply Fin.ext
    match a with
    | ⟨0, _⟩ => show win0_4.index t (0 : Fin 2) * 384 + 1 * k.val = k.val; omega
    | ⟨1, _⟩ => show win0_4.index t (1 : Fin 2) * 384 + 1 * g.val = g.val; omega
  rw [e]; exact Host.weightI_apply m c k g

theorem biasI_blk (c : Dev nD) (t : Fin cfg0.N) (k : Fin 384) :
    iblk m c 5 t (ix2 (0 : Fin 1) k) = (m ((c : Thread nD τ).loc main_arg5)) (ix1 k) := by
  show V m c main_v4 (((cfg0.win 5).blk t).view.emb (ix2 (0 : Fin 1) k)) = _
  have e : ((cfg0.win 5).blk t).view.emb (ix2 (0 : Fin 1) k) = ix2 (0 : Fin 1) k := by
    obtain ⟨-, -, -, -, -, -, -, -, -, -, e0, e1, -⟩ := idx_facts t
    funext a; apply Fin.ext
    match a with
    | ⟨0, _⟩ => show win0_5.index t (0 : Fin 2) * 1 + 1 * 0 = 0; omega
    | ⟨1, _⟩ => show win0_5.index t (1 : Fin 2) * 384 + 1 * k.val = k.val; omega
  rw [e]; exact Host.biasI_apply m c k

theorem weightH_blk (c : Dev nD) (t : Fin cfg0.N) (k : Fin 128) (g : Fin 384) :
    iblk m c 6 t (ix2 k g) = (m ((c : Thread nD τ).loc main_arg6)) (ix2 g k) := by
  show V m c main_v9 (((cfg0.win 6).blk t).view.emb (ix2 k g)) = _
  have e : ((cfg0.win 6).blk t).view.emb (ix2 k g) = ix2 k g := by
    obtain ⟨-, -, -, -, -, -, -, -, -, -, -, -, e0, e1, -⟩ := idx_facts t
    funext a; apply Fin.ext
    match a with
    | ⟨0, _⟩ => show win0_6.index t (0 : Fin 2) * 128 + 1 * k.val = k.val; omega
    | ⟨1, _⟩ => show win0_6.index t (1 : Fin 2) * 384 + 1 * g.val = g.val; omega
  rw [e]; exact Host.weightH_apply m c k g

theorem biasH_blk (c : Dev nD) (t : Fin cfg0.N) (k : Fin 384) :
    iblk m c 7 t (ix2 (0 : Fin 1) k) = (m ((c : Thread nD τ).loc main_arg7)) (ix1 k) := by
  show V m c main_v5 (((cfg0.win 7).blk t).view.emb (ix2 (0 : Fin 1) k)) = _
  have e : ((cfg0.win 7).blk t).view.emb (ix2 (0 : Fin 1) k) = ix2 (0 : Fin 1) k := by
    obtain ⟨-, -, -, -, -, -, -, -, -, -, -, -, -, -, e0, e1, -⟩ := idx_facts t
    funext a; apply Fin.ext
    match a with
    | ⟨0, _⟩ => show win0_7.index t (0 : Fin 2) * 1 + 1 * 0 = 0; omega
    | ⟨1, _⟩ => show win0_7.index t (1 : Fin 2) * 384 + 1 * k.val = k.val; omega
  rw [e]; exact Host.biasH_apply m c k

/-! ## What a point writes back -/

/-- The block the body leaves is `E8` of its eight loaded blocks. -/
theorem out_eq (x0 : Vec Ideal S1024x386 .f32) (x1 : Vec Ideal S1024x1 .f32) (x2 x3 : Vec Ideal S1x128 .f32)
    (x4 : Vec Ideal S384x384 .bf16) (x5 : Vec Ideal S1x384 .f32) (x6 : Vec Ideal S128x384 .bf16)
    (x7 : Vec Ideal S1x384 .f32) :
    out0_8 x0 x1 x2 x3 x4 x5 x6 x7 = E8 x0 x1 x2 x3 x4 x5 x6 x7 := by
  unfold out0_8
  simp only [View.ld_unit_zero (S := S1024x386) hz, View.ld_unit_zero (S := S1024x1) hz, View.ld_unit_zero (S := S1x128) hz,
    View.ld_unit_zero (S := S384x384) hz, View.ld_unit_zero (S := S1x384) hz, View.ld_unit_zero (S := S128x384) hz]
  funext y
  exact canon8_eq x0 x1 x2 x3 x4 x5 x6 x7 y

/-- The result of the whole computation, on core `c`. -/
abbrev res (c : Dev nD) : S262144x128.Idx → EReal :=
  Cert.Gru.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- What point `t` writes back is block `t` of the result. -/
theorem flushed_eq (c : Dev nD) (t : Fin cfg0.N) :
    (dats m 0 c).flushed 8 t = ((cfg0.win 8).blk t).view.read (Elt Ideal) (res m c) := by
  rw [flushed8, out_eq (iblk m c 0 t) (iblk m c 1 t) (iblk m c 2 t) (iblk m c 3 t) (iblk m c 4 t) (iblk m c 5 t) (iblk m c 6 t) (iblk m c 7 t)]
  funext y
  obtain ⟨r, j, rfl⟩ : ∃ (r : Fin 1024) (j : Fin 128), y = ix2 r j := ⟨y 0, y 1, eq_ix2 (n0 := 1024) (n1 := 128) y⟩
  show E8 (iblk m c 0 t) (iblk m c 1 t) (iblk m c 2 t) (iblk m c 3 t) (iblk m c 4 t) (iblk m c 5 t) (iblk m c 6 t) (iblk m c 7 t) (ix2 r j) = res m c (((cfg0.win 8).blk t).view.emb (ix2 r j))
  have e : ((cfg0.win 8).blk t).view.emb (ix2 r j) = ix2 (rowAt t r) j := by
    obtain ⟨-, -, -, -, -, -, -, -, -, -, -, -, -, -, -, -, e0, e1⟩ := idx_facts t
    funext a; apply Fin.ext
    match a with
    | ⟨0, _⟩ => show win0_8.index t (0 : Fin 2) * 1024 + 1 * r.val = 1024 * t.val + r.val; omega
    | ⟨1, _⟩ => show win0_8.index t (1 : Fin 2) * 128 + 1 * j.val = j.val; omega
  rw [e]
  refine (Body.E8_apply (iblk m c 0 t) (iblk m c 1 t) (iblk m c 2 t) (iblk m c 3 t) (iblk m c 4 t) (iblk m c 5 t) (iblk m c 6 t) (iblk m c 7 t) r j).trans ?_
  show _ = Cert.Gru.cell (Cert.Gru.dataRow (m ((c : Thread nD τ).loc main_arg0)) (rowAt t r)) (Cert.Gru.timeRow (m ((c : Thread nD τ).loc main_arg1)) (rowAt t r))
    (fun k => (m ((c : Thread nD τ).loc main_arg2)) (ix1 k)) (fun k => (m ((c : Thread nD τ).loc main_arg3)) (ix1 k))
    (fun g k => (m ((c : Thread nD τ).loc main_arg4)) (ix2 g k)) (fun g => (m ((c : Thread nD τ).loc main_arg5)) (ix1 g))
    (fun g k => (m ((c : Thread nD τ).loc main_arg6)) (ix2 g k)) (fun g => (m ((c : Thread nD τ).loc main_arg7)) (ix1 g)) j
  have h0 : (fun q => iblk m c 0 t (ix2 r q)) = Cert.Gru.dataRow (m ((c : Thread nD τ).loc main_arg0)) (rowAt t r) :=
    funext fun q => data_blk m c t r q
  have h2 : (fun k => iblk m c 2 t (ix2 (0 : Fin 1) k)) = fun k => (m ((c : Thread nD τ).loc main_arg2)) (ix1 k) :=
    funext fun k => freq_blk m c t k
  have h3 : (fun k => iblk m c 3 t (ix2 (0 : Fin 1) k)) = fun k => (m ((c : Thread nD τ).loc main_arg3)) (ix1 k) :=
    funext fun k => phase_blk m c t k
  have h4 : (fun g k => iblk m c 4 t (ix2 k g)) = fun (g k : Fin 384) => (m ((c : Thread nD τ).loc main_arg4)) (ix2 g k) :=
    funext fun g => funext fun k => weightI_blk m c t k g
  have h5 : (fun g => iblk m c 5 t (ix2 (0 : Fin 1) g)) = fun g => (m ((c : Thread nD τ).loc main_arg5)) (ix1 g) :=
    funext fun g => biasI_blk m c t g
  have h6 : (fun g k => iblk m c 6 t (ix2 k g)) = fun (g : Fin 384) (k : Fin 128) => (m ((c : Thread nD τ).loc main_arg6)) (ix2 g k) :=
    funext fun g => funext fun k => weightH_blk m c t k g
  have h7 : (fun g => iblk m c 7 t (ix2 (0 : Fin 1) g)) = fun g => (m ((c : Thread nD τ).loc main_arg7)) (ix1 g) :=
    funext fun g => biasH_blk m c t g
  rw [h0, time_blk m c t r, h2, h3, h4, h5, h6, h7]

/-! ## The blocks cover the result -/

/-- An index of the result is in point `t`'s block iff each coordinate is in the block's range on its axis. -/
theorem mem_blk (t : Fin cfg0.N) (i : S262144x128.Idx) :
    i ∈ ((cfg0.win 8).blk t).view.set ↔ ∀ a : Fin 2, win0_8.index t a * S1024x128.size a ≤ (i a).val
      ∧ (i a).val < win0_8.index t a * S1024x128.size a + S1024x128.size a := by
  show i ∈ ((View.whole main_v10).slice (win0_8.rect t)).set ↔ _
  rw [View.set_slice_whole, Rect.mem_set_unit]
  exact Iff.rfl

/-- Row `R` of the result lies in the block of point `R / 1024`. -/
theorem cover (i : S262144x128.Idx) :
    ∃ t : Fin cfg0.N, (cfg0.win 8).flush t = true ∧ i ∈ ((cfg0.win 8).blk t).view.set := by
  have hi0 : (i 0).val < 262144 := (i 0).isLt
  have hi1 : (i 1).val < 128 := (i 1).isLt
  have hN : (i 0).val / 1024 < cfg0.N := by
    show (i 0).val / 1024 < grid0.N
    rw [N_0]; omega
  refine ⟨⟨(i 0).val / 1024, hN⟩, flush0_8 _, ?_⟩
  rw [mem_blk]
  obtain ⟨-, -, -, -, -, -, -, -, -, -, -, -, -, -, -, -, e0, e1⟩ := idx_facts ⟨(i 0).val / 1024, hN⟩
  have e0' : win0_8.index ⟨(i 0).val / 1024, hN⟩ (0 : Fin 2) = (i 0).val / 1024 := e0
  intro a
  match a with
  | ⟨0, _⟩ =>
    show win0_8.index ⟨(i 0).val / 1024, hN⟩ (0 : Fin 2) * 1024 ≤ (i 0).val
      ∧ (i 0).val < win0_8.index ⟨(i 0).val / 1024, hN⟩ (0 : Fin 2) * 1024 + 1024
    omega
  | ⟨1, _⟩ =>
    show win0_8.index ⟨(i 0).val / 1024, hN⟩ (1 : Fin 2) * 128 ≤ (i 1).val
      ∧ (i 1).val < win0_8.index ⟨(i 0).val / 1024, hN⟩ (1 : Fin 2) * 128 + 128
    omega

/-- The result array after the run. -/
theorem final (c : Dev nD) : (dats m 0 c).arrAt 8 cfg0.N = res m c :=
  (dats m 0 c).arrAt_eq_of_cover 8 (res m c) (fun t _ => flushed_eq m c t) cover

/-- Every weakly fair execution of the kernel program terminates with the result array at `Gru.result` of the
    eight arguments, and the arguments unchanged. -/
theorem run : θ_run defs (onTc (τ := τ) (main (F := Ideal))) ⟨m, fun _ => 0, ρ⟩ fun r => ∀ c : Dev nD,
      r.2.mem ((c : Thread nD τ).loc main_v10) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.Blocks

end
-- ==== Proof.RefRows.lean ====
/-
  The reference's intermediate arrays, read at an index.

  The reference flattens `data` to 262144 rows of 386 entries and `data_ts` to 262144 times; flattened row `R`
  is row `R % 65536` of split `R / 65536`.  Read at row `R`: the GRU input (the 256 mail features joined with
  the 128 time features) is `Gru.xin` of the row, and the two affine maps into the 384 gate columns are
  `Gru.gateI` and `Gru.gateH` of the row — the host's matrix products being, over the extended reals, the plain
  sums over the contracted index, with `W_ih` and `W_hh` read transposed.
-/
import proofs.«114836_j10642928959816_1_alg».proof.Proof.Gen.ReferenceIdeal.Read
import proofs.«114836_j10642928959816_1_alg».proof.Proof.GruCell
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo
open scoped BigOperators

/-- Entry `(R, q)` of the flattened data is entry `q` of row `R % 65536` of split `R / 65536`. -/
theorem flat_apply (x0 : FVec Ideal S4x65536x386 .f32) (R : Fin 262144) (q : Fin 386) :
    val_main_v0 (F := Ideal) x0 (ix2 R q) = Cert.Gru.dataRow x0 R q := by
  rw [val_main_v0_apply]
  unfold Cert.Gru.dataRow
  congr 1
  funext a
  apply Fin.ext
  have hR := R.isLt
  have hq := q.isLt
  match a with
  | ⟨0, _⟩ => show (R.val * 386 + q.val) / 25296896 = R.val / 65536; omega
  | ⟨1, _⟩ => show (R.val * 386 + q.val) / 386 % 65536 = R.val % 65536; omega
  | ⟨2, _⟩ => show (R.val * 386 + q.val) % 386 = q.val; omega

/-- Entry `R` of the flattened event times. -/
theorem time_apply (x1 : FVec Ideal S4x65536 .f32) (R : Fin 262144) :
    val_main_v1 (F := Ideal) x1 (ix1 R) = Cert.Gru.timeRow x1 R := by
  rw [val_main_v1_apply]
  unfold Cert.Gru.timeRow
  congr 1
  funext a
  apply Fin.ext
  match a with
  | ⟨0, _⟩ => rfl
  | ⟨1, _⟩ => rfl

/-- The time difference of row `R`: the row's event time less its entry 0. -/
theorem dt_apply (x0 : FVec Ideal S4x65536x386 .f32) (x1 : FVec Ideal S4x65536 .f32) (R : Fin 262144) :
    val_main_v6 (F := Ideal) x0 x1 (ix1 R) = Cert.Gru.timeRow x1 R - Cert.Gru.dataRow x0 R ⟨0, by decide⟩ := by
  rw [val_main_v6_apply, time_apply, val_main_v3_apply, val_main_v2_apply]
  have e : idx_main_v2 (idx_main_v3 (ix1 R)) = ix2 R (⟨0, by decide⟩ : Fin 386) := by
    funext a
    apply Fin.ext
    match a with
    | ⟨0, _⟩ => show R.val / 1 = R.val; omega
    | ⟨1, _⟩ => rfl
  rw [e, flat_apply]
  rfl

/-- The time feature `(R, k)`: the cosine of the time difference times frequency `k` plus phase `k`. -/
theorem timeFeat_apply (x0 : FVec Ideal S4x65536x386 .f32) (x1 : FVec Ideal S4x65536 .f32) (x2 x3 : FVec Ideal S128 .f32)
    (R : Fin 262144) (k : Fin 128) :
    val_main_v15 (F := Ideal) x0 x1 x2 x3 (ix2 R k)
      = Ideal.cos ((Cert.Gru.timeRow x1 R - Cert.Gru.dataRow x0 R ⟨0, by decide⟩) * x2 (ix1 k) + x3 (ix1 k)) := by
  rw [val_main_v15_apply, val_main_v14_apply, val_main_v11_apply, val_main_v9_apply, val_main_v7_apply,
    val_main_v10_apply, val_main_v8_apply, val_main_v13_apply, val_main_v12_apply]
  have e1 : idx_main_v7 (idx_main_v9 (ix2 R k)) = ix1 R := by
    funext a; match a with | ⟨0, _⟩ => rfl
  have e2 : idx_main_v8 (idx_main_v10 (ix2 R k)) = ix1 k := by
    funext a; match a with | ⟨0, _⟩ => rfl
  have e3 : idx_main_v12 (idx_main_v13 (ix2 R k)) = ix1 k := by
    funext a; match a with | ⟨0, _⟩ => rfl
  rw [e1, e2, e3, dt_apply]
  rfl

/-- The GRU input `(R, k)`: through the join of the mail features with the time features. -/
theorem xin_apply (x0 : FVec Ideal S4x65536x386 .f32) (x1 : FVec Ideal S4x65536 .f32) (x2 x3 : FVec Ideal S128 .f32)
    (R : Fin 262144) (k : Fin 384) :
    val_main_v16 (F := Ideal) x0 x1 x2 x3 (ix2 R k)
      = Cert.Gru.xin (Cert.Gru.dataRow x0 R) (Cert.Gru.timeRow x1 R) (fun k => x2 (ix1 k)) (fun k => x3 (ix1 k)) k := by
  unfold val_main_v16
  by_cases h : k.val < 256
  · rw [Cert.Gru.xin_mail _ _ _ _ k h]
    refine (concatenate_pair_apply_left (s₁ := S262144x256) (s₂ := S262144x128) (1 : Fin S262144x384.rank) _ _ _ (ix2 R k) rfl (ix2 R (⟨k.val, h⟩ : Fin 256))
      (fun b => match b with | ⟨0, _⟩ => rfl | ⟨1, _⟩ => rfl)).trans ?_
    rw [val_main_v4_apply]
    have e : idx_main_v4 (ix2 R (⟨k.val, h⟩ : Fin 256)) = ix2 R (⟨k.val + 2, by omega⟩ : Fin 386) := by
      funext a
      apply Fin.ext
      match a with
      | ⟨0, _⟩ => rfl
      | ⟨1, _⟩ => show 2 + k.val = k.val + 2; omega
    rw [e, flat_apply]
  · have h' : 256 ≤ k.val := Nat.le_of_not_lt h
    have hk := k.isLt
    rw [Cert.Gru.xin_time _ _ _ _ k h']
    refine (concatenate_pair_apply_right (s₁ := S262144x256) (s₂ := S262144x128) (1 : Fin S262144x384.rank) _ _ _ (ix2 R k) rfl rfl
      (ix2 R (⟨k.val - 256, by omega⟩ : Fin 128))
      (fun b hb => match b, hb with | ⟨0, _⟩, _ => rfl | ⟨1, _⟩, hb => absurd rfl hb) ?_).trans ?_
    · show (k.val - 256) + 256 = k.val
      omega
    · exact timeFeat_apply x0 x1 x2 x3 R _

end Cert.ReferenceIdeal.RefValue

end
-- ==== Proof.RefResult.lean ====
/-
  The reference computes `Gru.result`.

  At row `R` and gate column `c` the reference's two affine maps are `Gru.gateI` and `Gru.gateH` of the row:
  a host matrix product over the extended reals is the sum over the contracted index, and the transposed
  weight matrix read at `(k, c)` is the weight matrix at `(c, k)`.  The reference spells the logistic function
  as `1 / (1 + e^(-x))`; over the extended reals that IS the logistic function (`Gru.logistic_spelt`).  So entry
  `(R, j)` of the reference's result is the cell's value of row `R` at column `j`.
-/
import proofs.«114836_j10642928959816_1_alg».proof.Proof.RefRows

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo
open scoped BigOperators

/-- The input gates' pre-activation at `(R, c)`: the row's GRU input against row `c` of `W_ih`, plus `b_ih c`. -/
theorem gateI_apply (x0 : FVec Ideal S4x65536x386 .f32) (x1 : FVec Ideal S4x65536 .f32) (x2 x3 : FVec Ideal S128 .f32)
    (x4 : FVec Ideal S384x384 .f32) (x5 : FVec Ideal S384 .f32) (R : Fin 262144) (c : Fin 384) :
    val_main_v21 (F := Ideal) x0 x1 x2 x3 x4 x5 (ix2 R c)
      = Cert.Gru.gateI (Cert.Gru.dataRow x0 R) (Cert.Gru.timeRow x1 R) (fun k => x2 (ix1 k)) (fun k => x3 (ix1 k))
          (fun c k => x4 (ix2 c k)) (fun c => x5 (ix1 c)) c := by
  have h1 : val_main_v18 (F := Ideal) x0 x1 x2 x3 x4 (ix2 R c)
      = ∑ k : Fin 384, Cert.Gru.xin (Cert.Gru.dataRow x0 R) (Cert.Gru.timeRow x1 R) (fun k => x2 (ix1 k))
          (fun k => x3 (ix1 k)) k * x4 (ix2 c k) := by
    rw [val_main_v18_apply]
    refine Finset.sum_congr rfl fun k _ => ?_
    have el : lidx_main_v18 (ix2 R c) k = ix2 R k := by
      funext a; match a with | ⟨0, _⟩ => rfl | ⟨1, _⟩ => rfl
    have er : idx_main_v17 (ridx_main_v18 (ix2 R c) k) = ix2 c k := by
      funext a; match a with | ⟨0, _⟩ => rfl | ⟨1, _⟩ => rfl
    rw [el, xin_apply, val_main_v17_apply, er]
  have h2 : val_main_v20 (F := Ideal) x5 (ix2 R c) = x5 (ix1 c) := by
    rw [val_main_v20_apply, val_main_v19_apply]
    congr 1
    funext a; match a with | ⟨0, _⟩ => rfl
  rw [val_main_v21_apply, h1, h2]
  rfl

/-- The hidden gates' pre-activation at `(R, c)`: the row's memory values against row `c` of `W_hh`, plus `b_hh c`. -/
theorem gateH_apply (x0 : FVec Ideal S4x65536x386 .f32) (x6 : FVec Ideal S384x128 .f32) (x7 : FVec Ideal S384 .f32)
    (R : Fin 262144) (c : Fin 384) :
    val_main_v26 (F := Ideal) x0 x6 x7 (ix2 R c)
      = Cert.Gru.gateH (Cert.Gru.dataRow x0 R) (fun c k => x6 (ix2 c k)) (fun c => x7 (ix1 c)) c := by
  have h1 : val_main_v23 (F := Ideal) x0 x6 (ix2 R c)
      = ∑ k : Fin 128, Cert.Gru.dataRow x0 R ⟨k.val + 258, by omega⟩ * x6 (ix2 c k) := by
    rw [val_main_v23_apply]
    refine Finset.sum_congr rfl fun k _ => ?_
    have el : idx_main_v5 (lidx_main_v23 (ix2 R c) k) = ix2 R (⟨k.val + 258, by omega⟩ : Fin 386) := by
      funext a
      apply Fin.ext
      match a with
      | ⟨0, _⟩ => rfl
      | ⟨1, _⟩ => show 258 + k.val = k.val + 258; omega
    have er : idx_main_v22 (ridx_main_v23 (ix2 R c) k) = ix2 c k := by
      funext a; match a with | ⟨0, _⟩ => rfl | ⟨1, _⟩ => rfl
    rw [val_main_v5_apply, el, flat_apply, val_main_v22_apply, er]
  have h2 : val_main_v25 (F := Ideal) x7 (ix2 R c) = x7 (ix1 c) := by
    rw [val_main_v25_apply, val_main_v24_apply]
    congr 1
    funext a; match a with | ⟨0, _⟩ => rfl
  rw [val_main_v26_apply, h1, h2]
  rfl

/-- The reference's result is `Gru.result` of the eight arguments. -/
theorem result_eq (x0 : FVec Ideal S4x65536x386 .f32) (x1 : FVec Ideal S4x65536 .f32) (x2 x3 : FVec Ideal S128 .f32)
    (x4 : FVec Ideal S384x384 .f32) (x5 : FVec Ideal S384 .f32) (x6 : FVec Ideal S384x128 .f32) (x7 : FVec Ideal S384 .f32) :
    val_main_v54 (F := Ideal) x0 x1 x2 x3 x4 x5 x6 x7 = Cert.Gru.result x0 x1 x2 x3 x4 x5 x6 x7 := by
  funext i
  obtain ⟨R, j, rfl⟩ : ∃ (R : Fin 262144) (j : Fin 128), i = ix2 R j := ⟨i 0, i 1, eq_ix2 i⟩
  have hj := j.isLt
  -- the six gate values and the old memory value at `(R, j)`
  have gi0 : val_main_v27 (F := Ideal) x0 x1 x2 x3 x4 x5 (ix2 R j)
      = Cert.Gru.gateI (Cert.Gru.dataRow x0 R) (Cert.Gru.timeRow x1 R) (fun k => x2 (ix1 k)) (fun k => x3 (ix1 k))
        (fun c k => x4 (ix2 c k)) (fun c => x5 (ix1 c)) ⟨j.val, by omega⟩ := by
    rw [val_main_v27_apply]
    have e : idx_main_v27 (ix2 R j) = ix2 R (⟨j.val, by omega⟩ : Fin 384) := by
      funext a; match a with | ⟨0, _⟩ => rfl | ⟨1, _⟩ => rfl
    rw [e]; exact gateI_apply x0 x1 x2 x3 x4 x5 R _
  have gi1 : val_main_v28 (F := Ideal) x0 x1 x2 x3 x4 x5 (ix2 R j)
      = Cert.Gru.gateI (Cert.Gru.dataRow x0 R) (Cert.Gru.timeRow x1 R) (fun k => x2 (ix1 k)) (fun k => x3 (ix1 k))
        (fun c k => x4 (ix2 c k)) (fun c => x5 (ix1 c)) ⟨j.val + 128, by omega⟩ := by
    rw [val_main_v28_apply]
    have e : idx_main_v28 (ix2 R j) = ix2 R (⟨j.val + 128, by omega⟩ : Fin 384) := by
      funext a; apply Fin.ext
      match a with | ⟨0, _⟩ => rfl | ⟨1, _⟩ => show 128 + j.val = j.val + 128; omega
    rw [e]; exact gateI_apply x0 x1 x2 x3 x4 x5 R _
  have gi2 : val_main_v29 (F := Ideal) x0 x1 x2 x3 x4 x5 (ix2 R j)
      = Cert.Gru.gateI (Cert.Gru.dataRow x0 R) (Cert.Gru.timeRow x1 R) (fun k => x2 (ix1 k)) (fun k => x3 (ix1 k))
        (fun c k => x4 (ix2 c k)) (fun c => x5 (ix1 c)) ⟨j.val + 256, by omega⟩ := by
    rw [val_main_v29_apply]
    have e : idx_main_v29 (ix2 R j) = ix2 R (⟨j.val + 256, by omega⟩ : Fin 384) := by
      funext a; apply Fin.ext
      match a with | ⟨0, _⟩ => rfl | ⟨1, _⟩ => show 256 + j.val = j.val + 256; omega
    rw [e]; exact gateI_apply x0 x1 x2 x3 x4 x5 R _
  have gh0 : val_main_v30 (F := Ideal) x0 x6 x7 (ix2 R j)
      = Cert.Gru.gateH (Cert.Gru.dataRow x0 R) (fun c k => x6 (ix2 c k)) (fun c => x7 (ix1 c)) ⟨j.val, by omega⟩ := by
    rw [val_main_v30_apply]
    have e : idx_main_v30 (ix2 R j) = ix2 R (⟨j.val, by omega⟩ : Fin 384) := by
      funext a; match a with | ⟨0, _⟩ => rfl | ⟨1, _⟩ => rfl
    rw [e]; exact gateH_apply x0 x6 x7 R _
  have gh1 : val_main_v31 (F := Ideal) x0 x6 x7 (ix2 R j)
      = Cert.Gru.gateH (Cert.Gru.dataRow x0 R) (fun c k => x6 (ix2 c k)) (fun c => x7 (ix1 c)) ⟨j.val + 128, by omega⟩ := by
    rw [val_main_v31_apply]
    have e : idx_main_v31 (ix2 R j) = ix2 R (⟨j.val + 128, by omega⟩ : Fin 384) := by
      funext a; apply Fin.ext
      match a with | ⟨0, _⟩ => rfl | ⟨1, _⟩ => show 128 + j.val = j.val + 128; omega
    rw [e]; exact gateH_apply x0 x6 x7 R _
  have gh2 : val_main_v32 (F := Ideal) x0 x6 x7 (ix2 R j)
      = Cert.Gru.gateH (Cert.Gru.dataRow x0 R) (fun c k => x6 (ix2 c k)) (fun c => x7 (ix1 c)) ⟨j.val + 256, by omega⟩ := by
    rw [val_main_v32_apply]
    have e : idx_main_v32 (ix2 R j) = ix2 R (⟨j.val + 256, by omega⟩ : Fin 384) := by
      funext a; apply Fin.ext
      match a with | ⟨0, _⟩ => rfl | ⟨1, _⟩ => show 256 + j.val = j.val + 256; omega
    rw [e]; exact gateH_apply x0 x6 x7 R _
  have hm : val_main_v5 (F := Ideal) x0 (ix2 R j) = Cert.Gru.dataRow x0 R ⟨j.val + 258, by omega⟩ := by
    rw [val_main_v5_apply]
    have e : idx_main_v5 (ix2 R j) = ix2 R (⟨j.val + 258, by omega⟩ : Fin 386) := by
      funext a; apply Fin.ext
      match a with | ⟨0, _⟩ => rfl | ⟨1, _⟩ => show 258 + j.val = j.val + 258; omega
    rw [e, flat_apply]
  -- the five splats of the word of `1.0`
  have o36 : val_main_v36 (F := Ideal) (ix2 R j) = Cert.Gru.one := by rw [val_main_v36_apply]; rfl
  have o38 : val_main_v38 (F := Ideal) (ix2 R j) = Cert.Gru.one := by rw [val_main_v38_apply]; rfl
  have o43 : val_main_v43 (F := Ideal) (ix2 R j) = Cert.Gru.one := by rw [val_main_v43_apply]; rfl
  have o45 : val_main_v45 (F := Ideal) (ix2 R j) = Cert.Gru.one := by rw [val_main_v45_apply]; rfl
  have o50 : val_main_v50 (F := Ideal) (ix2 R j) = Cert.Gru.one := by rw [val_main_v50_apply]; rfl
  rw [val_main_v54_apply, val_main_v52_apply, val_main_v53_apply, val_main_v51_apply, val_main_v49_apply,
    val_main_v48_apply, val_main_v47_apply, val_main_v46_apply, val_main_v44_apply, val_main_v42_apply,
    val_main_v41_apply, val_main_v40_apply, val_main_v39_apply, val_main_v37_apply, val_main_v35_apply,
    val_main_v34_apply, val_main_v33_apply, gi0, gi1, gi2, gh0, gh1, gh2, hm, o36, o38, o43, o45, o50]
  unfold Cert.Gru.result Cert.Gru.cell Cert.Gru.combine
  rw [← Cert.Gru.logistic_spelt, ← Cert.Gru.logistic_spelt]
  rfl

end Cert.ReferenceIdeal.RefValue

end
-- ==== Proof.lean ====
/-
  A memory update of 262144 rows by a GRU cell with a cosine time encoding: the kernel against its reference,
  over the extended reals.

  Each row holds the time of its last update, 256 mail features and 128 memory values `h`.  With the row's event
  time `s`, frequencies `w` and phases `b`, the GRU input `x` is the mail features followed by
  `cos ((s - last) · w k + b k)`, the gate pre-activations are `gi = x · W_ihᵀ + b_ih` and `gh = h · W_hhᵀ + b_hh`,
  and the new memory is `(1 - z) · n + z · h` with `r = σ (gi_r + gh_r)`, `z = σ (gi_z + gh_z)`,
  `n = tanh (gi_n + r · gh_n)` (`Gru.result`, Proof/GruCell.lean).

  The kernel walks the rows in 256 blocks of 1024, with the weights transposed on the host beforehand and
  its two matrix products taken in a narrower float format: over the extended reals a change of format is the
  identity and a matrix product into a zero accumulator is the plain sum, so each block it writes is that
  block of `Gru.result`, and the blocks cover the result (Proof/KerBody.lean, KerHost.lean, KerBlocks.lean).
  The reference computes all rows at once and spells the logistic function as `1 / (1 + e^(-x))`, which over
  the extended reals is the logistic function; its result is `Gru.result` too (Proof/RefRows.lean,
  RefResult.lean).  No step uses that the inputs are finite: sums and products are only ever regrouped
  index by index, never distributed.
-/
import proofs.«114836_j10642928959816_1_alg».proof.Defs
import proofs.«114836_j10642928959816_1_alg».proof.Proof.Gen.Kernel
import proofs.«114836_j10642928959816_1_alg».proof.Proof.Gen.Kernel.Skeleton
import proofs.«114836_j10642928959816_1_alg».proof.Proof.Gen.Kernel.Launch
import proofs.«114836_j10642928959816_1_alg».proof.Proof.Gen.Kernel.Points
import proofs.«114836_j10642928959816_1_alg».proof.Proof.Gen.Kernel.Frame
import proofs.«114836_j10642928959816_1_alg».proof.Proof.Gen.KernelIdeal
import proofs.«114836_j10642928959816_1_alg».proof.Proof.Gen.KernelIdeal.Skeleton
import proofs.«114836_j10642928959816_1_alg».proof.Proof.Gen.KernelIdeal.Launch
import proofs.«114836_j10642928959816_1_alg».proof.Proof.Gen.KernelIdeal.Points
import proofs.«114836_j10642928959816_1_alg».proof.Proof.Gen.KernelIdeal.Frame
import proofs.«114836_j10642928959816_1_alg».proof.Proof.Gen.ReferenceIdeal
import proofs.«114836_j10642928959816_1_alg».proof.Proof.Gen.Pre_finite_inputs
import proofs.«114836_j10642928959816_1_alg».proof.Proof.Gen.KernelIdeal.Value
import proofs.«114836_j10642928959816_1_alg».proof.Proof.Gen.ReferenceIdeal.Run
import proofs.«114836_j10642928959816_1_alg».proof.Proof.Gen.ReferenceIdeal.Read
import proofs.«114836_j10642928959816_1_alg».proof.Proof.KerBlocks
import proofs.«114836_j10642928959816_1_alg».proof.Proof.RefResult
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- The kernel over the extended reals runs and leaves its arguments unchanged. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run, the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the eight arguments both programs end with the result array at `Gru.result` of
    the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Blocks.res m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, Cert.ReferenceIdeal.RefValue.result_eq,
    (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
